-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000x64 : Shape := ⟨2, ![640000, 64]⟩
abbrev S20000x3 : Shape := ⟨2, ![20000, 3]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S20000x3 : S_.BroadcastsInDim S20000x3 (![] : Fin 0 → Fin S20000x3.rank)
  reducesTo_S20000x3_S_d0_1 : S20000x3.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S20000x128 .f32) (main_arg1 : IVec S2x640000 32) (main_arg2 : FVec F S640000x64 .f32) (main_arg3 : FVec F S20000x3 .f32) (main_arg4 : FVec F S320x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S20000x3 .f32 := Host.absf main_arg3
  let main_cst_2 : FVec F S_ .f32 := constant S_ .f32 0x7F800000#32
  let main_v10 : FVec F S20000x3 .f32 := broadcastInDim S20000x3 ![] bcast_S_S20000x3 main_cst_2
  let main_v11 : IVec S20000x3 1 := cmpf .olt main_v9 main_v10
  let main_c_3 : IVec S_ 1 := constantI S_ 1 1#1
  let main_v12 : IVec S_ 1 := (fun x v => Host.reduce IntOp.andi x v reducesTo_S20000x3_S_d0_1 h_S_) main_v11 main_c_3
  let main_v13 : IVec S_ 1 := andi main_v8 main_v12
  let main_v14 : FVec F S320x128 .f32 := Host.absf main_arg4
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S20000x128 : Shape := ⟨2, ![20000, 128]⟩
abbrev S2x640000 : Shape := ⟨2, ![2, 640000]⟩
abbrev S640000x64 : Shape := ⟨2, ![640000, 64]⟩
abbrev S20000x3 : Shape := ⟨2, ![20000, 3]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x320 : Shape := ⟨2, ![640000, 320]⟩
abbrev S4000x320 : Shape := ⟨2, ![4000, 320]⟩
abbrev S4000x128 : Shape := ⟨2, ![4000, 128]⟩
abbrev S4000x1 : Shape := ⟨2, ![4000, 1]⟩
abbrev S1x128 : Shape := ⟨2, ![1, 128]⟩
abbrev S4000x64 : Shape := ⟨2, ![4000, 64]⟩
abbrev S1x64 : Shape := ⟨2, ![1, 64]⟩
abbrev S1x1 : Shape := ⟨2, ![1, 1]⟩
abbrev S20000x256 : Shape := ⟨2, ![20000, 256]⟩
abbrev S4000x256 : Shape := ⟨2, ![4000, 256]⟩
abbrev S640000x3 : Shape := ⟨2, ![640000, 3]⟩

abbrev nBuf : Space → Nat
  | .hbm => 83
  | .vmem => 24
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000x64, .f32⟩
  | .hbm, ⟨3, _⟩ => ⟨S20000x3, .f32⟩
  | .hbm, ⟨4, _⟩ => ⟨S320x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S640000x320, .f32⟩
  | .hbm, ⟨39, _⟩ => ⟨S640000x128, .f32⟩
  | .hbm, ⟨40, _⟩ => ⟨S640000x1, .f32⟩
  | .hbm, ⟨41, _⟩ => ⟨S_, .f32⟩
  | .hbm, ⟨42, _⟩ => ⟨S20000x128, .f32⟩
  | .hbm, ⟨43, _⟩ => ⟨S640000x1, .i32⟩
  | .hbm, ⟨44, _⟩ => ⟨S20000x128, .f32⟩
  | .hbm, ⟨45, _⟩ => ⟨S20000x256, .f32⟩
  | .hbm, ⟨46, _⟩ => ⟨S20000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x3, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x3, .f32⟩
  | .hbm, ⟨65, _⟩ => ⟨S640000x3, .f32⟩
  | .hbm, ⟨66, _⟩ => ⟨S640000x3, .f32⟩
  | .hbm, ⟨67, _⟩ => ⟨S_, .f32⟩
  | .hbm, ⟨68, _⟩ => ⟨S640000, .f32⟩
  | .hbm, ⟨69, _⟩ => ⟨S640000x1, .f32⟩
  | .hbm, ⟨70, _⟩ => ⟨S640000x1, .f32⟩
  | .hbm, ⟨71, _⟩ => ⟨S_, .f32⟩
  | .hbm, ⟨72, _⟩ => ⟨S640000x1, .f32⟩
  | .hbm, ⟨73, _⟩ => ⟨S640000x1, .f32⟩
  | .hbm, ⟨74, _⟩ => ⟨S640000x3, .f32⟩
  | .hbm, ⟨75, _⟩ => ⟨S640000x3, .f32⟩
  | .hbm, ⟨76, _⟩ => ⟨S640000x3, .f32⟩
  | .hbm, ⟨77, _⟩ => ⟨S640000x3, .f32⟩
  | .hbm, ⟨78, _⟩ => ⟨S_, .f32⟩
  | .hbm, ⟨79, _⟩ => ⟨S20000x3, .f32⟩
  | .hbm, ⟨80, _⟩ => ⟨S640000x1, .i32⟩
  | .hbm, ⟨81, _⟩ => ⟨S20000x3, .f32⟩
  | .hbm, ⟨82, _⟩ => ⟨S20000x3, .f32⟩
  | .local _ .vmem, ⟨0, _⟩ => ⟨S4000x320, .f32⟩
  | .local _ .vmem, ⟨1, _⟩ => ⟨S4000x320, .f32⟩
  | .local _ .vmem, ⟨2, _⟩ => ⟨S320x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x1, .f32⟩
  | .local _ .vmem, ⟨9, _⟩ => ⟨S1, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S4000x256, .f32⟩
  | .local _ .vmem, ⟨15, _⟩ => ⟨S4000x256, .f32⟩
  | .local _ .vmem, ⟨16, _⟩ => ⟨S4000x128, .f32⟩
  | .local _ .vmem, ⟨17, _⟩ => ⟨S4000x128, .f32⟩
  | .local _ .vmem, ⟨18, _⟩ => ⟨S256x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S4000x128, .f32⟩
  | .local _ .vmem, ⟨23, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call0_v0 : Ref sig .tc := ⟨.hbm, 66, rfl⟩
abbrev main_call0_cst : Ref sig .tc := ⟨.hbm, 67, rfl⟩
abbrev main_call0_v1 : Ref sig .tc := ⟨.hbm, 68, rfl⟩
abbrev main_call0_v2 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x64_S640000x320_d1 : Shape.Concatenates [S640000x128, S640000x128, S640000x64] S640000x320 1
  inb_S4000x320_S4000x320_0_0 : ∀ a, (![0, 0] : Fin 2 → Nat) a + S4000x320.size a ≤ S4000x320.size a
  h_S4000x320 : 0 < S4000x320.numel
  shapeCasts_S4000x320_S4000x320 : S4000x320.ShapeCasts S4000x320
  bitsLt_bf16_f32 : FTy.bits .bf16 < FTy.bits .f32
  inb_S320x128_S320x128_0_0 : ∀ a, (![0, 0] : Fin 2 → Nat) a + S320x128.size a ≤ S320x128.size a
  h_S320x128 : 0 < S320x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  bcast_S_S20000x128 : S_.BroadcastsInDim S20000x128 (![] : Fin 0 → Fin S20000x128.rank)
  concatenates_S20000x128_S20000x128_S20000x256_d1 : Shape.Concatenates [S20000x128, S20000x128] S20000x256 1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  reducesTo_S640000x3_S640000_d1 : S640000x3.ReducesTo [1] S640000
  h_S_ : 0 < S_.numel
  bcast_S_S640000x1 : S_.BroadcastsInDim S640000x1 (![] : Fin 0 → Fin S640000x1.rank)
  bcast_S640000x1_S640000x3_0_1 : S640000x1.BroadcastsInDim S640000x3 (![0, 1] : Fin 2 → Fin S640000x3.rank)
  bcast_S_S20000x3 : S_.BroadcastsInDim S20000x3 (![] : Fin 0 → Fin S20000x3.rank)
  gather_S20000x128_S640000x1_S640000x128_1_0_n_n_0_1_1128_wf : GatherDims.WF S20000x128 S640000x1 S640000x128 [1] [0] [] [0] [] 1 ![1, 128]
  dot_S4000x320_S320x128_S4000x128_1_0_0_1_n_n_wf : DotDims.WF S4000x320 S320x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  scatter_S20000x128_S640000x1_S640000x128_1_0_0_1_wf : ScatterDims.WF S20000x128 S640000x1 S640000x128 [1] [0] [0] 1
  dot_S4000x256_S256x128_S4000x128_1_0_0_1_n_n_wf : DotDims.WF S4000x256 S256x128 S4000x128 [1] [0] [0] [1] [] []
  gather_S20000x3_S640000x1_S640000x3_1_0_n_n_0_1_13_wf : GatherDims.WF S20000x3 S640000x1 S640000x3 [1] [0] [] [0] [] 1 ![1, 3]
  scatter_S20000x3_S640000x1_S640000x3_1_0_0_1_wf : ScatterDims.WF S20000x3 S640000x1 S640000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x320.size a ≤ S640000x320.size a
  hwx0_0 : ∀ i : grid0.Coords, EltTy.bits .f32 = 32 ∨ (Rect.block (s := S640000x320) S4000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .f32 = 32 ∨ (Rect.block (s := S320x128) S320x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S640000x128.size a
  hwx0_9 : ∀ i : grid0.Coords, EltTy.bits .f32 = 32 ∨ (Rect.block (s := S640000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x1.size a ≤ S640000x1.size a
  hwx0_10 : ∀ i : grid0.Coords, EltTy.bits .f32 = 32 ∨ (Rect.block (s := S640000x1) S4000x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .f32 = 32 ∨ (Rect.block (s := S20000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S20000x128.size a
  hwx1_6 : ∀ i : grid1.Coords, EltTy.bits .f32 = 32 ∨ (Rect.block (s := S20000x128) S4000x128.size (cc1_transform_6 i) (hinb1_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S4000x320_S320x128_S4000x128_1_0_0_1_n_n : DotDims S4000x320 S320x128 S4000x128 where
  lhsContracting := [1]
  rhsContracting := [0]
  lhsNonContracting := [0]
  rhsNonContracting := [1]
  lhsBatch := []
  rhsBatch := []
  wf := dot_S4000x320_S320x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf

abbrev win0_0 : Pipeline.Window sig grid0 :=
  Pipeline.Window.ofSpec (Memref.whole main_v18) S4000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_1) S4000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v23) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000x64 : Shape := ⟨2, ![640000, 64]⟩
abbrev S20000x3 : Shape := ⟨2, ![20000, 3]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x320 : Shape := ⟨2, ![640000, 320]⟩
abbrev S1x128 : Shape := ⟨2, ![1, 128]⟩
abbrev S20000x256 : Shape := ⟨2, ![20000, 256]⟩
abbrev S1x64 : Shape := ⟨2, ![1, 64]⟩
abbrev S1x1 : Shape := ⟨2, ![1, 1]⟩
abbrev S640000x3 : Shape := ⟨2, ![640000, 3]⟩

abbrev nBuf : Space → Nat
  | .hbm => 141
  | .vmem => 0
  | .smem => 0
  | _ => 0

abbrev hbmTy0_0 (i : Nat) : BufTy := match i % 128 with
  | 0 => ⟨S20000x128, .f32⟩
  | 1 => ⟨S2x640000, .i32⟩
  | 2 => ⟨S640000x64, .f32⟩
  | 3 => ⟨S20000x3, .f32⟩
  | 4 => ⟨S320x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x128, .f32⟩
  | 38 => ⟨S640000x320, .f32⟩
  | 39 => ⟨S640000x128, .f32⟩
  | 40 => ⟨S1x128, .f32⟩
  | 41 => ⟨S640000x128, .f32⟩
  | 42 => ⟨S640000x128, .f32⟩
  | 43 => ⟨S640000x128, .f32⟩
  | 44 => ⟨S640000x128, .f32⟩
  | 45 => ⟨S_, .f32⟩
  | 46 => ⟨S640000x128, .f32⟩
  | 47 => ⟨S640000x128, .f32⟩
  | 48 => ⟨S_, .f32⟩
  | 49 => ⟨S640000x128, .f32⟩
  | 50 => ⟨S640000x128, .f32⟩
  | 51 => ⟨S640000x128, .f32⟩
  | 52 => ⟨S640000x128, .f32⟩
  | 53 => ⟨S1x128, .f32⟩
  | 54 => ⟨S640000x128, .f32⟩
  | 55 => ⟨S640000x128, .f32⟩
  | 56 => ⟨S640000x128, .f32⟩
  | 57 => ⟨S640000x128, .f32⟩
  | 58 => ⟨S_, .f32⟩
  | 59 => ⟨S640000x128, .f32⟩
  | 60 => ⟨S640000x128, .f32⟩
  | 61 => ⟨S_, .f32⟩
  | 62 => ⟨S640000x128, .f32⟩
  | 63 => ⟨S640000x128, .f32⟩
  | 64 => ⟨S640000x128, .f32⟩
  | 65 => ⟨S_, .f32⟩
  | 66 => ⟨S20000x128, .f32⟩
  | 67 => ⟨S640000x1, .i32⟩
  | 68 => ⟨S20000x128, .f32⟩
  | 69 => ⟨S20000x256, .f32⟩
  | 70 => ⟨S20000x128, .f32⟩
  | 71 => ⟨S1x128, .f32⟩
  | 72 => ⟨S20000x128, .f32⟩
  | 73 => ⟨S20000x128, .f32⟩
  | 74 => ⟨S20000x128, .f32⟩
  | 75 => ⟨S20000x128, .f32⟩
  | 76 => ⟨S_, .f32⟩
  | 77 => ⟨S20000x128, .f32⟩
  | 78 => ⟨S20000x128, .f32⟩
  | 79 => ⟨S_, .f32⟩
  | 80 => ⟨S20000x128, .f32⟩
  | 81 => ⟨S20000x128, .f32⟩
  | 82 => ⟨S20000x128, .f32⟩
  | 83 => ⟨S20000x128, .f32⟩
  | 84 => ⟨S1x128, .f32⟩
  | 85 => ⟨S20000x128, .f32⟩
  | 86 => ⟨S20000x128, .f32⟩
  | 87 => ⟨S20000x128, .f32⟩
  | 88 => ⟨S640000x64, .f32⟩
  | 89 => ⟨S1x64, .f32⟩
  | 90 => ⟨S640000x64, .f32⟩
  | 91 => ⟨S640000x64, .f32⟩
  | 92 => ⟨S640000x64, .f32⟩
  | 93 => ⟨S640000x64, .f32⟩
  | 94 => ⟨S_, .f32⟩
  | 95 => ⟨S640000x64, .f32⟩
  | 96 => ⟨S640000x64, .f32⟩
  | 97 => ⟨S_, .f32⟩
  | 98 => ⟨S640000x64, .f32⟩
  | 99 => ⟨S640000x64, .f32⟩
  | 100 => ⟨S640000x64, .f32⟩
  | 101 => ⟨S640000x1, .f32⟩
  | 102 => ⟨S1x1, .f32⟩
  | 103 => ⟨S640000x1, .f32⟩
  | 104 => ⟨S640000x1, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x3, .f32⟩
  | 114 => ⟨S_, .i32⟩
  | 115 => ⟨S640000, .i32⟩
  | 116 => ⟨S640000, .i1⟩
  | 117 => ⟨S_, .i32⟩
  | 118 => ⟨S640000, .i32⟩
  | 119 => ⟨S640000, .i32⟩
  | 120 => ⟨S640000, .i32⟩
  | 121 => ⟨S640000x1, .i32⟩
  | 122 => ⟨S640000x3, .f32⟩
  | 123 => ⟨S640000x3, .f32⟩
  | 124 => ⟨S640000x3, .f32⟩
  | 125 => ⟨S_, .f32⟩
  | 126 => ⟨S640000, .f32⟩
  | 127 => ⟨S640000x1, .f32⟩
  | _ => ⟨S20000x128, .f32⟩

abbrev hbmTy0_1 (i : Nat) : BufTy := match i % 128 with
  | 0 => ⟨S640000x1, .f32⟩
  | 1 => ⟨S_, .f32⟩
  | 2 => ⟨S640000x1, .f32⟩
  | 3 => ⟨S640000x1, .f32⟩
  | 4 => ⟨S640000x3, .f32⟩
  | 5 => ⟨S640000x3, .f32⟩
  | 6 => ⟨S640000x3, .f32⟩
  | 7 => ⟨S640000x3, .f32⟩
  | 8 => ⟨S_, .f32⟩
  | 9 => ⟨S20000x3, .f32⟩
  | 10 => ⟨S640000x1, .i32⟩
  | 11 => ⟨S20000x3, .f32⟩
  | 12 => ⟨S20000x3, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_c_3 : Ref sig .tc := ⟨.hbm, 105, rfl⟩
abbrev main_v52 : Ref sig .tc := ⟨.hbm, 106, rfl⟩
abbrev main_v53 : Ref sig .tc := ⟨.hbm, 107, rfl⟩
abbrev main_c_4 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_c_5 : Ref sig .tc := ⟨.hbm, 114, rfl⟩
abbrev main_v59 : Ref sig .tc := ⟨.hbm, 115, rfl⟩
abbrev main_v60 : Ref sig .tc := ⟨.hbm, 116, rfl⟩
abbrev main_c_6 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call4_v0 : Ref sig .tc := ⟨.hbm, 124, rfl⟩
abbrev main_call4_cst : Ref sig .tc := ⟨.hbm, 125, rfl⟩
abbrev main_call4_v1 : Ref sig .tc := ⟨.hbm, 126, rfl⟩
abbrev main_call4_v2 : Ref sig .tc := ⟨.hbm, 127, rfl⟩
abbrev main_v67 : Ref sig .tc := ⟨.hbm, 128, rfl⟩
abbrev main_cst_7 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_8 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x64_S640000x320_d1 : Shape.Concatenates [S640000x128, S640000x128, S640000x64] S640000x320 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x3_S640000_d1 : S640000x3.ReducesTo [1] S640000
  h_S_ : 0 < S_.numel
  bcast_S_S640000x1 : S_.BroadcastsInDim S640000x1 (![] : Fin 0 → Fin S640000x1.rank)
  bcast_S640000x1_S640000x3_0_1 : S640000x1.BroadcastsInDim S640000x3 (![0, 1] : Fin 2 → Fin S640000x3.rank)
  bcast_S_S20000x3 : S_.BroadcastsInDim S20000x3 (![] : Fin 0 → Fin S20000x3.rank)
  gather_S20000x128_S640000x1_S640000x128_1_0_n_n_0_1_1128_wf : GatherDims.WF S20000x128 S640000x1 S640000x128 [1] [0] [] [0] [] 1 ![1, 128]
  dot_S640000x320_S320x128_S640000x128_1_0_0_1_n_n_wf : DotDims.WF S640000x320 S320x128 S640000x128 [1] [0] [0] [1] [] []
  dot_S640000x128_S128x128_S640000x128_1_0_0_1_n_n_wf : DotDims.WF S640000x128 S128x128 S640000x128 [1] [0] [0] [1] [] []
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []
  dot_S640000x128_S128x64_S640000x64_1_0_0_1_n_n_wf : DotDims.WF S640000x128 S128x64 S640000x64 [1] [0] [0] [1] [] []
  dot_S640000x64_S64x1_S640000x1_1_0_0_1_n_n_wf : DotDims.WF S640000x64 S64x1 S640000x1 [1] [0] [0] [1] [] []
  gather_S20000x3_S640000x1_S640000x3_1_0_n_n_0_1_13_wf : GatherDims.WF S20000x3 S640000x1 S640000x3 [1] [0] [] [0] [] 1 ![1, 3]
  scatter_S20000x3_S640000x1_S640000x3_1_0_0_1_wf : ScatterDims.WF S20000x3 S640000x1 S640000x3 [1] [0] [0] 1

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x320_S320x128_S640000x128_1_0_0_1_n_n : DotDims S640000x320 S320x128 S640000x128 where
  lhsContracting := [1]
  rhsContracting := [0]
  lhsNonContracting := [0]
  rhsNonContracting := [1]
  lhsBatch := []
  rhsBatch := []
  wf := dot_S640000x320_S320x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S640000x128_S128x64_S640000x64_1_0_0_1_n_n : DotDims S640000x128 S128x64 S640000x64 where
  lhsContracting := [1]
  rhsContracting := [0]
  lhsNonContracting := [0]
  rhsNonContracting := [1]
  lhsBatch := []
  rhsBatch := []
  wf := dot_S640000x128_S128x64_S640000x64_1_0_0_1_n_n_wf
def dot_S640000x64_S64x1_S640000x1_1_0_0_1_n_n : DotDims S640000x64 S64x1 S640000x1 where
  lhsContracting := [1]
  rhsContracting := [0]
  lhsNonContracting := [0]
  rhsNonContracting := [1]
  lhsBatch := []
  rhsBatch := []
  wf := dot_S640000x64_S64x1_S640000x1_1_0_0_1_n_n_wf
def gather_S20000x3_S640000x1_S640000x3_1_0_n_n_0_1_13 : GatherDims S20000x3 S640000x1 S640000x3 where
  offsetDims := [1]
  collapsedSliceDims := [0]
  operandBatchingDims := []
  startIndicesBatchingDims := []
  startIndexMap := [0]
  indexVectorDim := 1
  sliceSizes := ![1, 3]
  wf := gather_S20000x3_S640000x1_S640000x3_1_0_n_n_0_1_13_wf
def scatter_S20000x3_S640000x1_S640000x3_1_0_0_1 : ScatterDims S20000x3 S640000x1 S640000x3 where
  updateWindowDims := [1]
  insertedWindowDims := [0]
  scatterDimsToOperandDims := [0]
  indexVectorDim := 1
  wf := scatter_S20000x3_S640000x1_S640000x3_1_0_0_1_wf

class Facts : Prop extends Facts₀ where

variable [Facts]
-- ==== Proof.KEdge.lean ====
/-
  The edge call, one grid point at a time.  The call walks the 640000 edge rows in 160 blocks of 4000.  At a point the
  body is handed the point's block of edge features and the eight weight and bias arrays whole (their one block is
  the array, fetched at the first point and left in place), and stores two blocks: the messages of its 4000 edges and
  their coordinate weights.  Here: what each window's buffer holds before and after the body at a point, the body's
  triple, and from them the obligation the pipeline asks of the body, all at a parameter V, the buffers' contents when
  the call is entered.
-/
import proofs.«110601_j7275674599802_1_alg».proof.Proof.Gen.Kernel.Launch
import proofs.«110601_j7275674599802_1_alg».proof.Proof.Gen.Kernel.Skeleton
import proofs.«110601_j7275674599802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, fetched there or not: a window that is not fetched at a
    point has not moved, and the body leaves every input block in place. One statement per input window. -/

theorem before_in0 {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4 {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5 {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem before_in6 {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem before_in7 {c : Dev nD} (dat : Dat τ (Elt F) Unit ℕ (UR sig nD τ) ℕ cfg0 c) (hA : dat.A 7 = V c (Pipeline.arrRef spec0 7))
    (hafter : ∀ t, dat.after 7 t = blockAt V c 7 t) (t : Fin cfg0.N) (d) : dat.before 7 t d = blockAt V c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem before_in8 {c : Dev nD} (dat : Dat τ (Elt F) Unit ℕ (UR sig nD τ) ℕ cfg0 c) (hA : dat.A 8 = V c (Pipeline.arrRef spec0 8))
    (hafter : ∀ t, dat.after 8 t = blockAt V c 8 t) (t : Fin cfg0.N) (d) : dat.before 8 t d = blockAt V c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store takes a buffer whole -/

abbrev rEf : Rect S4000x320 := Rect.unit (s := S4000x320) ![0, 0] S4000x320.size inb_S4000x320_S4000x320_0_0
abbrev rW1 : Rect S320x128 := Rect.unit (s := S320x128) ![0, 0] S320x128.size inb_S320x128_S320x128_0_0
abbrev rB128 : Rect S128 := Rect.unit (s := S128) ![0] S128.size inb_S128_S128_0
abbrev rW2 : Rect S128x128 := Rect.unit (s := S128x128) ![0, 0] S128x128.size inb_S128x128_S128x128_0_0
abbrev rC1 : Rect S128x64 := Rect.unit (s := S128x64) ![0, 0] S128x64.size inb_S128x64_S128x64_0_0
abbrev rB64 : Rect S64 := Rect.unit (s := S64) ![0] S64.size inb_S64_S64_0
abbrev rC2 : Rect S64x1 := Rect.unit (s := S64x1) ![0, 0] S64x1.size inb_S64x1_S64x1_0_0
abbrev rB1 : Rect S1 := Rect.unit (s := S1) ![0] S1.size inb_S1_S1_0
abbrev rEm : Rect S4000x128 := Rect.unit (s := S4000x128) ![0, 0] S4000x128.size inb_S4000x128_S4000x128_0_0
abbrev rCw : Rect S4000x1 := Rect.unit (s := S4000x1) ![0, 0] S4000x1.size inb_S4000x1_S4000x1_0_0

/-! ## What the body leaves in the two output buffers -/

/-- The message buffer after the body: its one whole store, the messages of the block's 4000 edges. -/
def emOut (x0 : Vec F S4000x320 .f32) (x1 : Vec F S320x128 .f32) (x2 : Vec F S128 .f32) (x3 : Vec F S128x128 .f32)
    (x4 : Vec F S128 .f32) : Vec F S4000x128 .f32 :=
  View.canon [⟨rEm, k0_pay2 (View.ld x0 rEf) (View.ld x1 rW1) (View.ld x2 rB128) (View.ld x3 rW2) (View.ld x4 rB128)⟩]

/-- The coordinate-weight buffer after the body: its one whole store. -/
def cwOut (x0 : Vec F S4000x320 .f32) (x1 : Vec F S320x128 .f32) (x2 : Vec F S128 .f32) (x3 : Vec F S128x128 .f32)
    (x4 : Vec F S128 .f32) (x5 : Vec F S128x64 .f32) (x6 : Vec F S64 .f32) (x7 : Vec F S64x1 .f32) (x8 : Vec F S1 .f32) :
    Vec F S4000x1 .f32 :=
  View.canon [⟨rCw, k0_pay1 (k0_pay3 (View.ld x0 rEf) (View.ld x1 rW1) (View.ld x2 rB128) (View.ld x3 rW2) (View.ld x4 rB128)
    (View.ld x5 rC1) (View.ld x6 rB64) (View.ld x7 rC2)) (View.ld x8 rB1)⟩]

/-- The one store covers the message buffer. -/
theorem cover_em (p0 : Vec F S4000x128 .f32) (y : S4000x128.Idx) :
    ∃ pc ∈ ([⟨rEm, p0⟩] : List (View.Piece (Elt F) S4000x128 .f32)), y ∈ pc.1.set :=
  View.cover_of_tiled [⟨rEm, p0⟩] S4000x128.size (by rfl) y

/-- The one store covers the coordinate-weight buffer. -/
theorem cover_cw (p0 : Vec F S4000x1 .f32) (y : S4000x1.Idx) :
    ∃ pc ∈ ([⟨rCw, p0⟩] : List (View.Piece (Elt F) S4000x1 .f32)), y ∈ pc.1.set :=
  View.cover_of_tiled [⟨rCw, p0⟩] S4000x1.size (by rfl) y

/-! ## The body's triple -/

set_option maxHeartbeats 4000000 in
/-- The body on whole staging buffers, the nine inputs' at contents x0 … x8 and the two outputs' at anything, runs to
    the continuation with the inputs as they were and the outputs at emOut and cwOut of them. -/
theorem sound_kernel (c : Dev nD) (E : Set ℕ) (i : grid0.Coords)
    (arg1 : Memref sig .tc .vmem S4000x320 .f32) (harg1 : arg1.IsWhole) (arg2 : Memref sig .tc .vmem S320x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S64x1 .f32) (harg8 : arg8.IsWhole)
    (arg9 : Memref sig .tc .vmem S1 .f32) (harg9 : arg9.IsWhole) (arg10 : Memref sig .tc .vmem S4000x128 .f32) (harg10 : arg10.IsWhole)
    (arg11 : Memref sig .tc .vmem S4000x1 .f32) (harg11 : arg11.IsWhole)
    (x0 : Vec F S4000x320 .f32) (x1 : Vec F S320x128 .f32) (x2 : Vec F S128 .f32) (x3 : Vec F S128x128 .f32) (x4 : Vec F S128 .f32)
    (x5 : Vec F S128x64 .f32) (x6 : Vec F S64 .f32) (x7 : Vec F S64x1 .f32) (x8 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (emOut x0 x1 x2 x3 x4)
            ∗ owns (c : Thread nD τ) arg11 fullShare (cwOut x0 x1 x2 x3 x4 x5 x6 x7 x8)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_em _)
  iexists _; isplitr
  swap; · iexact H10
  ipureintro
  exact View.read_writes_eq_canon _ _ _ (cover_cw _)

/-! ## The call's proof data -/

/-- The proof data of the edge call on core c: the arrays as the call finds them; after the body at point t each
    input's buffer at its block, the message buffer at emOut and the weight buffer at cwOut of the input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => emOut (blockAt V c 0 t) (blockAt V c 1 t) (blockAt V c 2 t) (blockAt V c 3 t) (blockAt V c 4 t)
    | ⟨10, _⟩ => cwOut (blockAt V c 0 t) (blockAt V c 1 t) (blockAt V c 2 t) (blockAt V c 3 t) (blockAt V c 4 t)
        (blockAt V c 5 t) (blockAt V c 6 t) (blockAt V c 7 t) (blockAt V c 8 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = blockAt V c 5 t := by dsimp only [dat]
theorem after6 (c : Dev nD) (t : Fin cfg0.N) : (dat V c).after 6 t = blockAt V c 6 t := by dsimp only [dat]
theorem after7 (c : Dev nD) (t : Fin cfg0.N) : (dat V c).after 7 t = blockAt V c 7 t := by dsimp only [dat]
theorem after8 (c : Dev nD) (t : Fin cfg0.N) : (dat V c).after 8 t = blockAt V c 8 t := by dsimp only [dat]
theorem after_em (c : Dev nD) (t : Fin cfg0.N) : (dat V c).after 9 t =
    emOut (blockAt V c 0 t) (blockAt V c 1 t) (blockAt V c 2 t) (blockAt V c 3 t) (blockAt V c 4 t) := by dsimp only [dat]
theorem after_cw (c : Dev nD) (t : Fin cfg0.N) : (dat V c).after 10 t =
    cwOut (blockAt V c 0 t) (blockAt V c 1 t) (blockAt V c 2 t) (blockAt V c 3 t) (blockAt V c 4 t)
      (blockAt V c 5 t) (blockAt V c 6 t) (blockAt V c 7 t) (blockAt V c 8 t) := by dsimp only [dat]

theorem before0 (c : Dev nD) (t : Fin cfg0.N) (d) : (dat V c).before 0 t d = blockAt V c 0 t := before_in0 V (dat V c) (A_eq V c 0) (after0 V c) t d
theorem before1 (c : Dev nD) (t : Fin cfg0.N) (d) : (dat V c).before 1 t d = blockAt V c 1 t := before_in1 V (dat V c) (A_eq V c 1) (after1 V c) t d
theorem before2 (c : Dev nD) (t : Fin cfg0.N) (d) : (dat V c).before 2 t d = blockAt V c 2 t := before_in2 V (dat V c) (A_eq V c 2) (after2 V c) t d
theorem before3 (c : Dev nD) (t : Fin cfg0.N) (d) : (dat V c).before 3 t d = blockAt V c 3 t := before_in3 V (dat V c) (A_eq V c 3) (after3 V c) t d
theorem before4 (c : Dev nD) (t : Fin cfg0.N) (d) : (dat V c).before 4 t d = blockAt V c 4 t := before_in4 V (dat V c) (A_eq V c 4) (after4 V c) t d
theorem before5 (c : Dev nD) (t : Fin cfg0.N) (d) : (dat V c).before 5 t d = blockAt V c 5 t := before_in5 V (dat V c) (A_eq V c 5) (after5 V c) t d
theorem before6 (c : Dev nD) (t : Fin cfg0.N) (d) : (dat V c).before 6 t d = blockAt V c 6 t := before_in6 V (dat V c) (A_eq V c 6) (after6 V c) t d
theorem before7 (c : Dev nD) (t : Fin cfg0.N) (d) : (dat V c).before 7 t d = blockAt V c 7 t := before_in7 V (dat V c) (A_eq V c 7) (after7 V c) t d
theorem before8 (c : Dev nD) (t : Fin cfg0.N) (d) : (dat V c).before 8 t d = blockAt V c 8 t := before_in8 V (dat V c) (A_eq V c 8) (after8 V c) t d

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- The body at any point: the inputs' buffers hold their blocks, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after_em, after_cw]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (blockAt V c 0 t) (blockAt V c 1 t) (blockAt V c 2 t) (blockAt V c 3 t)
    (blockAt V c 4 t) (blockAt V c 5 t) (blockAt V c 6 t) (blockAt V c 7 t) (blockAt V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's obligation on the body, at every point. -/
theorem body_obligation (c : Dev nD) : BodyObligation (dat (F := F) V c) (defs₀ (F := F)) Variants.none () Set.univ := fun t => by
  rw [bigSep_W0, bigSep_W0]
  exact sound_body V c t

end Cert.Kernel.Edge

end
-- ==== Proof.KNode.lean ====
/-
  The node call, one grid point at a time.  The call walks the 20000 node rows in 5 blocks of 4000.  At a point the
  body is handed the point's block of node inputs (a node's features beside its gathered messages), the point's block
  of node features, and the four weight and bias arrays whole, and stores one block: the updated features of its 4000
  nodes.  Here: what each window's buffer holds before and after the body at a point, the body's triple, and the
  obligation the pipeline asks of the body, at a parameter V, the buffers' contents when the call is entered.
-/
import proofs.«110601_j7275674599802_1_alg».proof.Proof.Gen.Kernel.Launch
import proofs.«110601_j7275674599802_1_alg».proof.Proof.Gen.Kernel.Skeleton
import proofs.«110601_j7275674599802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, fetched there or not. One statement per input window. -/

theorem before_in0 {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4 {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5 {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store takes a buffer whole -/

abbrev rNi : Rect S4000x256 := Rect.unit (s := S4000x256) ![0, 0] S4000x256.size inb_S4000x256_S4000x256_0_0
abbrev rNf : Rect S4000x128 := Rect.unit (s := S4000x128) ![0, 0] S4000x128.size inb_S4000x128_S4000x128_0_0
abbrev rN1 : Rect S256x128 := Rect.unit (s := S256x128) ![0, 0] S256x128.size inb_S256x128_S256x128_0_0
abbrev rB128 : Rect S128 := Rect.unit (s := S128) ![0] S128.size inb_S128_S128_0
abbrev rN2 : Rect S128x128 := Rect.unit (s := S128x128) ![0, 0] S128x128.size inb_S128x128_S128x128_0_0

/-! ## What the body leaves in the output buffer -/

/-- The output buffer after the body: its one whole store, the updated features of the block's 4000 nodes. -/
def nodeOut (x0 : Vec F S4000x256 .f32) (x1 : Vec F S4000x128 .f32) (x2 : Vec F S256x128 .f32) (x3 : Vec F S128 .f32)
    (x4 : Vec F S128x128 .f32) (x5 : Vec F S128 .f32) : Vec F S4000x128 .f32 :=
  View.canon [⟨rNf, k1_pay1 (View.ld x0 rNi) (View.ld x2 rN1) (View.ld x3 rB128) (View.ld x4 rN2) (View.ld x5 rB128) (View.ld x1 rNf)⟩]

/-- The one store covers the output buffer. -/
theorem cover_out (p0 : Vec F S4000x128 .f32) (y : S4000x128.Idx) :
    ∃ pc ∈ ([⟨rNf, p0⟩] : List (View.Piece (Elt F) S4000x128 .f32)), y ∈ pc.1.set :=
  View.cover_of_tiled [⟨rNf, p0⟩] S4000x128.size (by rfl) y

/-! ## The body's triple -/

set_option maxHeartbeats 4000000 in
/-- The body on whole staging buffers, the six inputs' at contents x0 … x5 and the output's at anything, runs to the
    continuation with the inputs as they were and the output at nodeOut of them. -/
theorem sound_kernel (c : Dev nD) (E : Set ℕ) (i : grid1.Coords)
    (arg1 : Memref sig .tc .vmem S4000x256 .f32) (harg1 : arg1.IsWhole) (arg2 : Memref sig .tc .vmem S4000x128 .f32) (harg2 : arg2.IsWhole)
    (arg3 : Memref sig .tc .vmem S256x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S4000x128 .f32) (harg7 : arg7.IsWhole)
    (x0 : Vec F S4000x256 .f32) (x1 : Vec F S4000x128 .f32) (x2 : Vec F S256x128 .f32) (x3 : Vec F S128 .f32)
    (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (nodeOut x0 x1 x2 x3 x4 x5)) -∗ K ⟨⟩))
      ⊢ wp frame (wpE (defs₀ (F := F)) Variants.none c none) E
          (cc1__node_mlp_kernel i arg1 harg1 arg2 harg2 arg3 harg3 arg4 harg4 arg5 harg5 arg6 harg6 arg7 harg7) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The call's proof data -/

/-- The proof data of the node call on core c: the arrays as the call finds them; after the body at point t each
    input's buffer at its block and the output buffer at nodeOut of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => nodeOut (blockAt V c 0 t) (blockAt V c 1 t) (blockAt V c 2 t) (blockAt V c 3 t) (blockAt V c 4 t) (blockAt V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after_out (c : Dev nD) (t : Fin cfg1.N) : (dat V c).after 6 t =
    nodeOut (blockAt V c 0 t) (blockAt V c 1 t) (blockAt V c 2 t) (blockAt V c 3 t) (blockAt V c 4 t) (blockAt V c 5 t) := by dsimp only [dat]

theorem before0 (c : Dev nD) (t : Fin cfg1.N) (d) : (dat V c).before 0 t d = blockAt V c 0 t := before_in0 V (dat V c) (A_eq V c 0) (after0 V c) t d
theorem before1 (c : Dev nD) (t : Fin cfg1.N) (d) : (dat V c).before 1 t d = blockAt V c 1 t := before_in1 V (dat V c) (A_eq V c 1) (after1 V c) t d
theorem before2 (c : Dev nD) (t : Fin cfg1.N) (d) : (dat V c).before 2 t d = blockAt V c 2 t := before_in2 V (dat V c) (A_eq V c 2) (after2 V c) t d
theorem before3 (c : Dev nD) (t : Fin cfg1.N) (d) : (dat V c).before 3 t d = blockAt V c 3 t := before_in3 V (dat V c) (A_eq V c 3) (after3 V c) t d
theorem before4 (c : Dev nD) (t : Fin cfg1.N) (d) : (dat V c).before 4 t d = blockAt V c 4 t := before_in4 V (dat V c) (A_eq V c 4) (after4 V c) t d
theorem before5 (c : Dev nD) (t : Fin cfg1.N) (d) : (dat V c).before 5 t d = blockAt V c 5 t := before_in5 V (dat V c) (A_eq V c 5) (after5 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blockAt V c 0 t) (blockAt V c 1 t) (blockAt V c 2 t) (blockAt V c 3 t)
    (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dat (F := F) V c) (defs₀ (F := F)) Variants.none () Set.univ := fun t => by
  rw [bigSep_W1, bigSep_W1]
  exact sound_body V c t

end Cert.Kernel.Node

end
-- ==== Proof.KRun.lean ====
/-
  The whole program as a chain of seven items — host operations, the edge call, host operations, the node call, three
  stretches of host operations — and what every buffer holds between two of them.  Between items the TensorCore's
  unscoped buffers hold a fold of the launch memory: a stretch of host operations applies its operations; a call
  changes exactly its output arrays, each to what its write-backs leave.  One run of the chain names every buffer's
  final contents; that no item writes an argument is read off the fold, and with it the frame.
-/
import proofs.«110601_j7275674599802_1_alg».proof.Proof.KEdge
import proofs.«110601_j7275674599802_1_alg».proof.Proof.KNode
import proofs.«110601_j7275674599802_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's buffers at launch. -/
abbrev H0 (c : Dev nD) : Valuation τ sig (Elt F) := fun b => m (c, b)
/-- After the first stretch of host operations (the edge call's entry). -/
abbrev H1 (c : Dev nD) : Valuation τ sig (Elt F) := StableHlo.after hostOps0 (H0 m c)
/-- The same read at the TensorCore's references. -/
abbrev V1 : (c : Dev nD) → (b : Ref sig .tc) → Buf (Elt F) ((c : Thread nD τ).loc b) := fun c b => H1 m c b
/-- At the edge call's exit: its arrays at what the pipeline leaves, every other buffer as entered. -/
def H2 (c : Dev nD) : Valuation τ sig (Elt F) :=
  Pipeline.withArrays spec0 c (H1 m c) fun w => (Edge.dat (V1 m) c).arrAt w cfg0.N
theorem H2_arr (c : Dev nD) (w : Fin cfg0.W) :
    H2 m c (Proc.devRef .tc (Pipeline.arrRef spec0 w)) = (Edge.dat (V1 m) c).arrAt w cfg0.N := by
  unfold H2; exact Pipeline.withArrays_arr spec0 launch0.win.arr_inj c _ _ w
theorem H2_of_ne (c : Dev nD) (b : Ref sig .tc) (hb : ∀ w, Pipeline.arrRef spec0 w ≠ b) :
    H2 m c (Proc.devRef .tc b) = H1 m c (Proc.devRef .tc b) := by
  unfold H2; exact Pipeline.withArrays_of_ne spec0 c _ _ b hb
abbrev V2 : (c : Dev nD) → (b : Ref sig .tc) → Buf (Elt F) ((c : Thread nD τ).loc b) := fun c b => H2 m c b
theorem exitArr0 (c : Dev nD) (w : Fin cfg0.W) : (Edge.dat (V1 m) c).arrAt w cfg0.N = V2 m c (Pipeline.arrRef spec0 w) :=
  (H2_arr m c w).symm
theorem exitRest0 (c : Dev nD) : ∀ b, b ∉ Finset.univ.image (Pipeline.arrRef spec0) → V2 m c b = V1 m c b :=
  fun b hb => H2_of_ne m c b fun w e => hb (Finset.mem_image.mpr ⟨w, Finset.mem_univ _, e⟩)

/-- After the second stretch (the node call's entry). -/
abbrev H3 (c : Dev nD) : Valuation τ sig (Elt F) := StableHlo.after hostOps1 (H2 m c)
abbrev V3 : (c : Dev nD) → (b : Ref sig .tc) → Buf (Elt F) ((c : Thread nD τ).loc b) := fun c b => H3 m c b
/-- At the node call's exit. -/
def H4 (c : Dev nD) : Valuation τ sig (Elt F) :=
  Pipeline.withArrays spec1 c (H3 m c) fun w => (Node.dat (V3 m) c).arrAt w cfg1.N
theorem H4_arr (c : Dev nD) (w : Fin cfg1.W) :
    H4 m c (Proc.devRef .tc (Pipeline.arrRef spec1 w)) = (Node.dat (V3 m) c).arrAt w cfg1.N := by
  unfold H4; exact Pipeline.withArrays_arr spec1 launch1.win.arr_inj c _ _ w
theorem H4_of_ne (c : Dev nD) (b : Ref sig .tc) (hb : ∀ w, Pipeline.arrRef spec1 w ≠ b) :
    H4 m c (Proc.devRef .tc b) = H3 m c (Proc.devRef .tc b) := by
  unfold H4; exact Pipeline.withArrays_of_ne spec1 c _ _ b hb
abbrev V4 : (c : Dev nD) → (b : Ref sig .tc) → Buf (Elt F) ((c : Thread nD τ).loc b) := fun c b => H4 m c b
theorem exitArr1 (c : Dev nD) (w : Fin cfg1.W) : (Node.dat (V3 m) c).arrAt w cfg1.N = V4 m c (Pipeline.arrRef spec1 w) :=
  (H4_arr m c w).symm
theorem exitRest1 (c : Dev nD) : ∀ b, b ∉ Finset.univ.image (Pipeline.arrRef spec1) → V4 m c b = V3 m c b :=
  fun b hb => H4_of_ne m c b fun w e => hb (Finset.mem_image.mpr ⟨w, Finset.mem_univ _, e⟩)

/-- After the three closing stretches. -/
abbrev H5 (c : Dev nD) : Valuation τ sig (Elt F) := StableHlo.after hostOps2 (H4 m c)
abbrev H6 (c : Dev nD) : Valuation τ sig (Elt F) := StableHlo.after hostOps2_1 (H5 m c)
abbrev H7 (c : Dev nD) : Valuation τ sig (Elt F) := StableHlo.after hostOps2_2 (H6 m c)

/-! ## What a stretch of host operations leaves alone -/

theorem keep0 (Wv : Valuation τ sig (Elt F)) (r : Ref sig .tc) (h : r ∉ hostOps0_W) : StableHlo.after hostOps0 Wv r = Wv r :=
  StableHlo.after_of_writes_sub hostOps0 _ hostOps0_writes h
theorem keep1 (Wv : Valuation τ sig (Elt F)) (r : Ref sig .tc) (h : r ∉ hostOps1_W) : StableHlo.after hostOps1 Wv r = Wv r :=
  StableHlo.after_of_writes_sub hostOps1 _ hostOps1_writes h
theorem keep2 (Wv : Valuation τ sig (Elt F)) (r : Ref sig .tc) (h : r ∉ hostOps2_W) : StableHlo.after hostOps2 Wv r = Wv r :=
  StableHlo.after_of_writes_sub hostOps2 _ hostOps2_writes h
theorem keep21 (Wv : Valuation τ sig (Elt F)) (r : Ref sig .tc) (h : r ∉ hostOps2_1_W) : StableHlo.after hostOps2_1 Wv r = Wv r :=
  StableHlo.after_of_writes_sub hostOps2_1 _ hostOps2_1_writes h
theorem keep22 (Wv : Valuation τ sig (Elt F)) (r : Ref sig .tc) (h : r ∉ hostOps2_2_W) : StableHlo.after hostOps2_2 Wv r = Wv r :=
  StableHlo.after_of_writes_sub hostOps2_2 _ hostOps2_2_writes h

/-! ## The arguments end as launched: no host operation writes one, and a call reads an argument through an input
    window or not at all -/

theorem H7_arg0 (c : Dev nD) : H7 m c main_arg0 = m ((c : Thread nD τ).loc main_arg0) :=
  (keep22 _ main_arg0 (by decide)).trans <| (keep21 _ main_arg0 (by decide)).trans <| (keep2 _ main_arg0 (by decide)).trans <|
    ((H4_arr m c 1).trans (((Node.dat (V3 m) c).arrAt_in 1 rfl _).trans (Node.A_eq (V3 m) c 1))).trans <| (keep1 _ main_arg0 (by decide)).trans <|
    (H2_of_ne m c main_arg0 (by decide)).trans <| (keep0 _ main_arg0 (by decide)).trans rfl
theorem H7_arg1 (c : Dev nD) : H7 m c main_arg1 = m ((c : Thread nD τ).loc main_arg1) :=
  (keep22 _ main_arg1 (by decide)).trans <| (keep21 _ main_arg1 (by decide)).trans <| (keep2 _ main_arg1 (by decide)).trans <|
    (H4_of_ne m c main_arg1 (by decide)).trans <| (keep1 _ main_arg1 (by decide)).trans <|
    (H2_of_ne m c main_arg1 (by decide)).trans <| (keep0 _ main_arg1 (by decide)).trans rfl
theorem H7_arg2 (c : Dev nD) : H7 m c main_arg2 = m ((c : Thread nD τ).loc main_arg2) :=
  (keep22 _ main_arg2 (by decide)).trans <| (keep21 _ main_arg2 (by decide)).trans <| (keep2 _ main_arg2 (by decide)).trans <|
    (H4_of_ne m c main_arg2 (by decide)).trans <| (keep1 _ main_arg2 (by decide)).trans <|
    (H2_of_ne m c main_arg2 (by decide)).trans <| (keep0 _ main_arg2 (by decide)).trans rfl
theorem H7_arg3 (c : Dev nD) : H7 m c main_arg3 = m ((c : Thread nD τ).loc main_arg3) :=
  (keep22 _ main_arg3 (by decide)).trans <| (keep21 _ main_arg3 (by decide)).trans <| (keep2 _ main_arg3 (by decide)).trans <|
    (H4_of_ne m c main_arg3 (by decide)).trans <| (keep1 _ main_arg3 (by decide)).trans <|
    (H2_of_ne m c main_arg3 (by decide)).trans <| (keep0 _ main_arg3 (by decide)).trans rfl
theorem H7_arg4 (c : Dev nD) : H7 m c main_arg4 = m ((c : Thread nD τ).loc main_arg4) :=
  (keep22 _ main_arg4 (by decide)).trans <| (keep21 _ main_arg4 (by decide)).trans <| (keep2 _ main_arg4 (by decide)).trans <|
    (H4_of_ne m c main_arg4 (by decide)).trans <| (keep1 _ main_arg4 (by decide)).trans <|
    ((H2_arr m c 1).trans (((Edge.dat (V1 m) c).arrAt_in 1 rfl _).trans (Edge.A_eq (V1 m) c 1))).trans <| (keep0 _ main_arg4 (by decide)).trans rfl
theorem H7_arg5 (c : Dev nD) : H7 m c main_arg5 = m ((c : Thread nD τ).loc main_arg5) :=
  (keep22 _ main_arg5 (by decide)).trans <| (keep21 _ main_arg5 (by decide)).trans <| (keep2 _ main_arg5 (by decide)).trans <|
    (H4_of_ne m c main_arg5 (by decide)).trans <| (keep1 _ main_arg5 (by decide)).trans <|
    ((H2_arr m c 2).trans (((Edge.dat (V1 m) c).arrAt_in 2 rfl _).trans (Edge.A_eq (V1 m) c 2))).trans <| (keep0 _ main_arg5 (by decide)).trans rfl
theorem H7_arg6 (c : Dev nD) : H7 m c main_arg6 = m ((c : Thread nD τ).loc main_arg6) :=
  (keep22 _ main_arg6 (by decide)).trans <| (keep21 _ main_arg6 (by decide)).trans <| (keep2 _ main_arg6 (by decide)).trans <|
    (H4_of_ne m c main_arg6 (by decide)).trans <| (keep1 _ main_arg6 (by decide)).trans <|
    ((H2_arr m c 3).trans (((Edge.dat (V1 m) c).arrAt_in 3 rfl _).trans (Edge.A_eq (V1 m) c 3))).trans <| (keep0 _ main_arg6 (by decide)).trans rfl
theorem H7_arg7 (c : Dev nD) : H7 m c main_arg7 = m ((c : Thread nD τ).loc main_arg7) :=
  (keep22 _ main_arg7 (by decide)).trans <| (keep21 _ main_arg7 (by decide)).trans <| (keep2 _ main_arg7 (by decide)).trans <|
    (H4_of_ne m c main_arg7 (by decide)).trans <| (keep1 _ main_arg7 (by decide)).trans <|
    ((H2_arr m c 4).trans (((Edge.dat (V1 m) c).arrAt_in 4 rfl _).trans (Edge.A_eq (V1 m) c 4))).trans <| (keep0 _ main_arg7 (by decide)).trans rfl
theorem H7_arg8 (c : Dev nD) : H7 m c main_arg8 = m ((c : Thread nD τ).loc main_arg8) :=
  (keep22 _ main_arg8 (by decide)).trans <| (keep21 _ main_arg8 (by decide)).trans <| (keep2 _ main_arg8 (by decide)).trans <|
    ((H4_arr m c 2).trans (((Node.dat (V3 m) c).arrAt_in 2 rfl _).trans (Node.A_eq (V3 m) c 2))).trans <| (keep1 _ main_arg8 (by decide)).trans <|
    (H2_of_ne m c main_arg8 (by decide)).trans <| (keep0 _ main_arg8 (by decide)).trans rfl
theorem H7_arg9 (c : Dev nD) : H7 m c main_arg9 = m ((c : Thread nD τ).loc main_arg9) :=
  (keep22 _ main_arg9 (by decide)).trans <| (keep21 _ main_arg9 (by decide)).trans <| (keep2 _ main_arg9 (by decide)).trans <|
    ((H4_arr m c 3).trans (((Node.dat (V3 m) c).arrAt_in 3 rfl _).trans (Node.A_eq (V3 m) c 3))).trans <| (keep1 _ main_arg9 (by decide)).trans <|
    (H2_of_ne m c main_arg9 (by decide)).trans <| (keep0 _ main_arg9 (by decide)).trans rfl
theorem H7_arg10 (c : Dev nD) : H7 m c main_arg10 = m ((c : Thread nD τ).loc main_arg10) :=
  (keep22 _ main_arg10 (by decide)).trans <| (keep21 _ main_arg10 (by decide)).trans <| (keep2 _ main_arg10 (by decide)).trans <|
    ((H4_arr m c 4).trans (((Node.dat (V3 m) c).arrAt_in 4 rfl _).trans (Node.A_eq (V3 m) c 4))).trans <| (keep1 _ main_arg10 (by decide)).trans <|
    (H2_of_ne m c main_arg10 (by decide)).trans <| (keep0 _ main_arg10 (by decide)).trans rfl
theorem H7_arg11 (c : Dev nD) : H7 m c main_arg11 = m ((c : Thread nD τ).loc main_arg11) :=
  (keep22 _ main_arg11 (by decide)).trans <| (keep21 _ main_arg11 (by decide)).trans <| (keep2 _ main_arg11 (by decide)).trans <|
    ((H4_arr m c 5).trans (((Node.dat (V3 m) c).arrAt_in 5 rfl _).trans (Node.A_eq (V3 m) c 5))).trans <| (keep1 _ main_arg11 (by decide)).trans <|
    (H2_of_ne m c main_arg11 (by decide)).trans <| (keep0 _ main_arg11 (by decide)).trans rfl
theorem H7_arg12 (c : Dev nD) : H7 m c main_arg12 = m ((c : Thread nD τ).loc main_arg12) :=
  (keep22 _ main_arg12 (by decide)).trans <| (keep21 _ main_arg12 (by decide)).trans <| (keep2 _ main_arg12 (by decide)).trans <|
    (H4_of_ne m c main_arg12 (by decide)).trans <| (keep1 _ main_arg12 (by decide)).trans <|
    ((H2_arr m c 5).trans (((Edge.dat (V1 m) c).arrAt_in 5 rfl _).trans (Edge.A_eq (V1 m) c 5))).trans <| (keep0 _ main_arg12 (by decide)).trans rfl
theorem H7_arg13 (c : Dev nD) : H7 m c main_arg13 = m ((c : Thread nD τ).loc main_arg13) :=
  (keep22 _ main_arg13 (by decide)).trans <| (keep21 _ main_arg13 (by decide)).trans <| (keep2 _ main_arg13 (by decide)).trans <|
    (H4_of_ne m c main_arg13 (by decide)).trans <| (keep1 _ main_arg13 (by decide)).trans <|
    ((H2_arr m c 6).trans (((Edge.dat (V1 m) c).arrAt_in 6 rfl _).trans (Edge.A_eq (V1 m) c 6))).trans <| (keep0 _ main_arg13 (by decide)).trans rfl
theorem H7_arg14 (c : Dev nD) : H7 m c main_arg14 = m ((c : Thread nD τ).loc main_arg14) :=
  (keep22 _ main_arg14 (by decide)).trans <| (keep21 _ main_arg14 (by decide)).trans <| (keep2 _ main_arg14 (by decide)).trans <|
    (H4_of_ne m c main_arg14 (by decide)).trans <| (keep1 _ main_arg14 (by decide)).trans <|
    ((H2_arr m c 7).trans (((Edge.dat (V1 m) c).arrAt_in 7 rfl _).trans (Edge.A_eq (V1 m) c 7))).trans <| (keep0 _ main_arg14 (by decide)).trans rfl
theorem H7_arg15 (c : Dev nD) : H7 m c main_arg15 = m ((c : Thread nD τ).loc main_arg15) :=
  (keep22 _ main_arg15 (by decide)).trans <| (keep21 _ main_arg15 (by decide)).trans <| (keep2 _ main_arg15 (by decide)).trans <|
    (H4_of_ne m c main_arg15 (by decide)).trans <| (keep1 _ main_arg15 (by decide)).trans <|
    ((H2_arr m c 8).trans (((Edge.dat (V1 m) c).arrAt_in 8 rfl _).trans (Edge.A_eq (V1 m) c 8))).trans <| (keep0 _ main_arg15 (by decide)).trans rfl

/-! ## The proof data family and the thread state -/

/-- No call has a prefetched table. -/
abbrev noTables : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) noTables p) c
  | ⟨0, _⟩ => fun c => Edge.dat (V1 m) c
  | ⟨1, _⟩ => fun c => Node.dat (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents Wv. -/
abbrev hostItem (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tlast (c : Dev nD) : sProp 𝕄 := iprop(StableHlo.held (c : Thread nD τ) (Pipeline.ucRefs τ sig) (H7 m c) ∗ ∃ r, prngReg c r)

/-! ## The calls as items -/

set_option backward.isDefEq.respectTransparency.types false in
/-- The edge call: entered from every unscoped buffer at H1, left at H2. -/
def edgeItem : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V1 m) c).loose
  hwaits := Pipeline.hwaits_of_owed_zero _ _ _ _ L lv 0 fun _ _ => rfl
  pre c := iprop(StableHlo.held (c : Thread nD τ) (Pipeline.ucRefs τ sig) (H1 m c) ∗ R c)
  post c := iprop(StableHlo.held (c : Thread nD τ) (Pipeline.ucRefs τ sig) (H2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node call: entered from every unscoped buffer at H3, left at H4. -/
def nodeItem : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V3 m) c).loose
  hwaits := Pipeline.hwaits_of_owed_zero _ _ _ _ L lv 1 fun _ _ => rfl
  pre c := iprop(StableHlo.held (c : Thread nD τ) (Pipeline.ucRefs τ sig) (H3 m c) ∗ R c)
  post c := iprop(StableHlo.held (c : Thread nD τ) (Pipeline.ucRefs τ sig) (H4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The seven items in order. -/
abbrev items : List (Pipeline.Seg (pcfgs (F := F)) noTables (pdats m) () defs₀ 𝒱₀ L lv) :=
  [ .host (hostItem hostOps0 hostOps0_sub hostOps0_fresh (H0 m)),
    .region (edgeItem m),
    .host (hostItem hostOps1 hostOps1_sub hostOps1_fresh (H2 m)),
    .region (nodeItem m),
    .host (hostItem hostOps2 hostOps2_sub hostOps2_fresh (H4 m)),
    .host (hostItem hostOps2_1 hostOps2_1_sub hostOps2_1_fresh (H5 m)),
    .host (hostItem hostOps2_2 hostOps2_2_sub hostOps2_2_fresh (H6 m)) ]

/-- The program is the run of its items. -/
theorem main_items (c : Dev nD) : main (F := F) c = Pipeline.Seg.run (items m) := (main_chain c).trans (by chain_rfl)

set_option backward.isDefEq.respectTransparency.types false in
/-- From any memory with zero counters every weakly fair execution of the program terminates, nothing faulting, and
    every unscoped buffer of every core ends at the fold's last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = H7 m c b) :=
  Pipeline.θ_run_regions_kit (pcfgs (F := F)) noTables (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (H0 m c) ∗ R c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (H7 m c) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (H0 m c)
        from Pipeline.unscopedBufs_held c (H0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = H7 m c b)
    (hfin := fun c s' => by
      iintro ⟨⟨Hh, -⟩, HSI⟩
      unfold StableHlo.held
      imodintro
      iapply (pointsTo_read_all (Pipeline.ucRefs τ sig) (fun b => (((c : Thread nD τ)).1, b)) (H7 m c) s')
      isplitl [Hh] <;> iassumption)
    (hQ := fun s h => h)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (H7_arg0 m c),
     (h c _ (mem_uc main_arg1 (by decide))).trans (H7_arg1 m c),
     (h c _ (mem_uc main_arg2 (by decide))).trans (H7_arg2 m c),
     (h c _ (mem_uc main_arg3 (by decide))).trans (H7_arg3 m c),
     (h c _ (mem_uc main_arg4 (by decide))).trans (H7_arg4 m c),
     (h c _ (mem_uc main_arg5 (by decide))).trans (H7_arg5 m c),
     (h c _ (mem_uc main_arg6 (by decide))).trans (H7_arg6 m c),
     (h c _ (mem_uc main_arg7 (by decide))).trans (H7_arg7 m c),
     (h c _ (mem_uc main_arg8 (by decide))).trans (H7_arg8 m c),
     (h c _ (mem_uc main_arg9 (by decide))).trans (H7_arg9 m c),
     (h c _ (mem_uc main_arg10 (by decide))).trans (H7_arg10 m c),
     (h c _ (mem_uc main_arg11 (by decide))).trans (H7_arg11 m c),
     (h c _ (mem_uc main_arg12 (by decide))).trans (H7_arg12 m c),
     (h c _ (mem_uc main_arg13 (by decide))).trans (H7_arg13 m c),
     (h c _ (mem_uc main_arg14 (by decide))).trans (H7_arg14 m c),
     (h c _ (mem_uc main_arg15 (by decide))).trans (H7_arg15 m c)⟩)
    (run_all m ρ)

end Cert.Kernel.Run

end
-- ==== Proof.KIEdge.lean ====
/-
  The edge call, one grid point at a time.  The call walks the 640000 edge rows in 160 blocks of 4000.  At a point the
  body is handed the point's block of edge features and the eight weight and bias arrays whole (their one block is
  the array, fetched at the first point and left in place), and stores two blocks: the messages of its 4000 edges and
  their coordinate weights.  Here: what each window's buffer holds before and after the body at a point, the body's
  triple, and from them the obligation the pipeline asks of the body, all at a parameter V, the buffers' contents when
  the call is entered.
-/
import proofs.«110601_j7275674599802_1_alg».proof.Proof.Gen.KernelIdeal.Launch
import proofs.«110601_j7275674599802_1_alg».proof.Proof.Gen.KernelIdeal.Skeleton
import proofs.«110601_j7275674599802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, fetched there or not: a window that is not fetched at a
    point has not moved, and the body leaves every input block in place. One statement per input window. -/

theorem before_in0 {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4 {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5 {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem before_in6 {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem before_in7 {c : Dev nD} (dat : Dat τ (Elt F) Unit ℕ (UR sig nD τ) ℕ cfg0 c) (hA : dat.A 7 = V c (Pipeline.arrRef spec0 7))
    (hafter : ∀ t, dat.after 7 t = blockAt V c 7 t) (t : Fin cfg0.N) (d) : dat.before 7 t d = blockAt V c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem before_in8 {c : Dev nD} (dat : Dat τ (Elt F) Unit ℕ (UR sig nD τ) ℕ cfg0 c) (hA : dat.A 8 = V c (Pipeline.arrRef spec0 8))
    (hafter : ∀ t, dat.after 8 t = blockAt V c 8 t) (t : Fin cfg0.N) (d) : dat.before 8 t d = blockAt V c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store takes a buffer whole -/

abbrev rEf : Rect S4000x320 := Rect.unit (s := S4000x320) ![0, 0] S4000x320.size inb_S4000x320_S4000x320_0_0
abbrev rW1 : Rect S320x128 := Rect.unit (s := S320x128) ![0, 0] S320x128.size inb_S320x128_S320x128_0_0
abbrev rB128 : Rect S128 := Rect.unit (s := S128) ![0] S128.size inb_S128_S128_0
abbrev rW2 : Rect S128x128 := Rect.unit (s := S128x128) ![0, 0] S128x128.size inb_S128x128_S128x128_0_0
abbrev rC1 : Rect S128x64 := Rect.unit (s := S128x64) ![0, 0] S128x64.size inb_S128x64_S128x64_0_0
abbrev rB64 : Rect S64 := Rect.unit (s := S64) ![0] S64.size inb_S64_S64_0
abbrev rC2 : Rect S64x1 := Rect.unit (s := S64x1) ![0, 0] S64x1.size inb_S64x1_S64x1_0_0
abbrev rB1 : Rect S1 := Rect.unit (s := S1) ![0] S1.size inb_S1_S1_0
abbrev rEm : Rect S4000x128 := Rect.unit (s := S4000x128) ![0, 0] S4000x128.size inb_S4000x128_S4000x128_0_0
abbrev rCw : Rect S4000x1 := Rect.unit (s := S4000x1) ![0, 0] S4000x1.size inb_S4000x1_S4000x1_0_0

/-! ## What the body leaves in the two output buffers -/

/-- The message buffer after the body: its one whole store, the messages of the block's 4000 edges. -/
def emOut (x0 : Vec F S4000x320 .f32) (x1 : Vec F S320x128 .f32) (x2 : Vec F S128 .f32) (x3 : Vec F S128x128 .f32)
    (x4 : Vec F S128 .f32) : Vec F S4000x128 .f32 :=
  View.canon [⟨rEm, k0_pay2 (View.ld x0 rEf) (View.ld x1 rW1) (View.ld x2 rB128) (View.ld x3 rW2) (View.ld x4 rB128)⟩]

/-- The coordinate-weight buffer after the body: its one whole store. -/
def cwOut (x0 : Vec F S4000x320 .f32) (x1 : Vec F S320x128 .f32) (x2 : Vec F S128 .f32) (x3 : Vec F S128x128 .f32)
    (x4 : Vec F S128 .f32) (x5 : Vec F S128x64 .f32) (x6 : Vec F S64 .f32) (x7 : Vec F S64x1 .f32) (x8 : Vec F S1 .f32) :
    Vec F S4000x1 .f32 :=
  View.canon [⟨rCw, k0_pay1 (k0_pay3 (View.ld x0 rEf) (View.ld x1 rW1) (View.ld x2 rB128) (View.ld x3 rW2) (View.ld x4 rB128)
    (View.ld x5 rC1) (View.ld x6 rB64) (View.ld x7 rC2)) (View.ld x8 rB1)⟩]

/-- The one store covers the message buffer. -/
theorem cover_em (p0 : Vec F S4000x128 .f32) (y : S4000x128.Idx) :
    ∃ pc ∈ ([⟨rEm, p0⟩] : List (View.Piece (Elt F) S4000x128 .f32)), y ∈ pc.1.set :=
  View.cover_of_tiled [⟨rEm, p0⟩] S4000x128.size (by rfl) y

/-- The one store covers the coordinate-weight buffer. -/
theorem cover_cw (p0 : Vec F S4000x1 .f32) (y : S4000x1.Idx) :
    ∃ pc ∈ ([⟨rCw, p0⟩] : List (View.Piece (Elt F) S4000x1 .f32)), y ∈ pc.1.set :=
  View.cover_of_tiled [⟨rCw, p0⟩] S4000x1.size (by rfl) y

/-! ## The body's triple -/

set_option maxHeartbeats 4000000 in
/-- The body on whole staging buffers, the nine inputs' at contents x0 … x8 and the two outputs' at anything, runs to
    the continuation with the inputs as they were and the outputs at emOut and cwOut of them. -/
theorem sound_kernel (c : Dev nD) (E : Set ℕ) (i : grid0.Coords)
    (arg1 : Memref sig .tc .vmem S4000x320 .f32) (harg1 : arg1.IsWhole) (arg2 : Memref sig .tc .vmem S320x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S128x64 .f32) (harg6 : arg6.IsWhole)
    (arg7 : Memref sig .tc .vmem S64 .f32) (harg7 : arg7.IsWhole) (arg8 : Memref sig .tc .vmem S64x1 .f32) (harg8 : arg8.IsWhole)
    (arg9 : Memref sig .tc .vmem S1 .f32) (harg9 : arg9.IsWhole) (arg10 : Memref sig .tc .vmem S4000x128 .f32) (harg10 : arg10.IsWhole)
    (arg11 : Memref sig .tc .vmem S4000x1 .f32) (harg11 : arg11.IsWhole)
    (x0 : Vec F S4000x320 .f32) (x1 : Vec F S320x128 .f32) (x2 : Vec F S128 .f32) (x3 : Vec F S128x128 .f32) (x4 : Vec F S128 .f32)
    (x5 : Vec F S128x64 .f32) (x6 : Vec F S64 .f32) (x7 : Vec F S64x1 .f32) (x8 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (emOut x0 x1 x2 x3 x4)
            ∗ owns (c : Thread nD τ) arg11 fullShare (cwOut x0 x1 x2 x3 x4 x5 x6 x7 x8)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_em _)
  iexists _; isplitr
  swap; · iexact H10
  ipureintro
  exact View.read_writes_eq_canon _ _ _ (cover_cw _)

/-! ## The call's proof data -/

/-- The proof data of the edge call on core c: the arrays as the call finds them; after the body at point t each
    input's buffer at its block, the message buffer at emOut and the weight buffer at cwOut of the input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => emOut (blockAt V c 0 t) (blockAt V c 1 t) (blockAt V c 2 t) (blockAt V c 3 t) (blockAt V c 4 t)
    | ⟨10, _⟩ => cwOut (blockAt V c 0 t) (blockAt V c 1 t) (blockAt V c 2 t) (blockAt V c 3 t) (blockAt V c 4 t)
        (blockAt V c 5 t) (blockAt V c 6 t) (blockAt V c 7 t) (blockAt V c 8 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blockAt V c 0 t := by dsimp only [dat]
theorem after1 (c : Dev nD) (t : Fin cfg0.N) : (dat V c).after 1 t = blockAt V c 1 t := by dsimp only [dat]
theorem after2 (c : Dev nD) (t : Fin cfg0.N) : (dat V c).after 2 t = blockAt V c 2 t := by dsimp only [dat]
theorem after3 (c : Dev nD) (t : Fin cfg0.N) : (dat V c).after 3 t = blockAt V c 3 t := by dsimp only [dat]
theorem after4 (c : Dev nD) (t : Fin cfg0.N) : (dat V c).after 4 t = blockAt V c 4 t := by dsimp only [dat]
theorem after5 (c : Dev nD) (t : Fin cfg0.N) : (dat V c).after 5 t = blockAt V c 5 t := by dsimp only [dat]
theorem after6 (c : Dev nD) (t : Fin cfg0.N) : (dat V c).after 6 t = blockAt V c 6 t := by dsimp only [dat]
theorem after7 (c : Dev nD) (t : Fin cfg0.N) : (dat V c).after 7 t = blockAt V c 7 t := by dsimp only [dat]
theorem after8 (c : Dev nD) (t : Fin cfg0.N) : (dat V c).after 8 t = blockAt V c 8 t := by dsimp only [dat]
theorem after_em (c : Dev nD) (t : Fin cfg0.N) : (dat V c).after 9 t =
    emOut (blockAt V c 0 t) (blockAt V c 1 t) (blockAt V c 2 t) (blockAt V c 3 t) (blockAt V c 4 t) := by dsimp only [dat]
theorem after_cw (c : Dev nD) (t : Fin cfg0.N) : (dat V c).after 10 t =
    cwOut (blockAt V c 0 t) (blockAt V c 1 t) (blockAt V c 2 t) (blockAt V c 3 t) (blockAt V c 4 t)
      (blockAt V c 5 t) (blockAt V c 6 t) (blockAt V c 7 t) (blockAt V c 8 t) := by dsimp only [dat]

theorem before0 (c : Dev nD) (t : Fin cfg0.N) (d) : (dat V c).before 0 t d = blockAt V c 0 t := before_in0 V (dat V c) (A_eq V c 0) (after0 V c) t d
theorem before1 (c : Dev nD) (t : Fin cfg0.N) (d) : (dat V c).before 1 t d = blockAt V c 1 t := before_in1 V (dat V c) (A_eq V c 1) (after1 V c) t d
theorem before2 (c : Dev nD) (t : Fin cfg0.N) (d) : (dat V c).before 2 t d = blockAt V c 2 t := before_in2 V (dat V c) (A_eq V c 2) (after2 V c) t d
theorem before3 (c : Dev nD) (t : Fin cfg0.N) (d) : (dat V c).before 3 t d = blockAt V c 3 t := before_in3 V (dat V c) (A_eq V c 3) (after3 V c) t d
theorem before4 (c : Dev nD) (t : Fin cfg0.N) (d) : (dat V c).before 4 t d = blockAt V c 4 t := before_in4 V (dat V c) (A_eq V c 4) (after4 V c) t d
theorem before5 (c : Dev nD) (t : Fin cfg0.N) (d) : (dat V c).before 5 t d = blockAt V c 5 t := before_in5 V (dat V c) (A_eq V c 5) (after5 V c) t d
theorem before6 (c : Dev nD) (t : Fin cfg0.N) (d) : (dat V c).before 6 t d = blockAt V c 6 t := before_in6 V (dat V c) (A_eq V c 6) (after6 V c) t d
theorem before7 (c : Dev nD) (t : Fin cfg0.N) (d) : (dat V c).before 7 t d = blockAt V c 7 t := before_in7 V (dat V c) (A_eq V c 7) (after7 V c) t d
theorem before8 (c : Dev nD) (t : Fin cfg0.N) (d) : (dat V c).before 8 t d = blockAt V c 8 t := before_in8 V (dat V c) (A_eq V c 8) (after8 V c) t d

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- The body at any point: the inputs' buffers hold their blocks, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after_em, after_cw]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (blockAt V c 0 t) (blockAt V c 1 t) (blockAt V c 2 t) (blockAt V c 3 t)
    (blockAt V c 4 t) (blockAt V c 5 t) (blockAt V c 6 t) (blockAt V c 7 t) (blockAt V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's obligation on the body, at every point. -/
theorem body_obligation (c : Dev nD) : BodyObligation (dat (F := F) V c) (defs₀ (F := F)) Variants.none () Set.univ := fun t => by
  rw [bigSep_W0, bigSep_W0]
  exact sound_body V c t

end Cert.KernelIdeal.Edge

end
-- ==== Proof.KINode.lean ====
/-
  The node call, one grid point at a time.  The call walks the 20000 node rows in 5 blocks of 4000.  At a point the
  body is handed the point's block of node inputs (a node's features beside its gathered messages), the point's block
  of node features, and the four weight and bias arrays whole, and stores one block: the updated features of its 4000
  nodes.  Here: what each window's buffer holds before and after the body at a point, the body's triple, and the
  obligation the pipeline asks of the body, at a parameter V, the buffers' contents when the call is entered.
-/
import proofs.«110601_j7275674599802_1_alg».proof.Proof.Gen.KernelIdeal.Launch
import proofs.«110601_j7275674599802_1_alg».proof.Proof.Gen.KernelIdeal.Skeleton
import proofs.«110601_j7275674599802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, fetched there or not. One statement per input window. -/

theorem before_in0 {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4 {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5 {c : Dev nD} (dat : Dat τ (Elt F) Unit ℕ (UR sig nD τ) ℕ cfg1 c) (hA : dat.A 5 = V c (Pipeline.arrRef spec1 5))
    (hafter : ∀ t, dat.after 5 t = blockAt V c 5 t) (t : Fin cfg1.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store takes a buffer whole -/

abbrev rNi : Rect S4000x256 := Rect.unit (s := S4000x256) ![0, 0] S4000x256.size inb_S4000x256_S4000x256_0_0
abbrev rNf : Rect S4000x128 := Rect.unit (s := S4000x128) ![0, 0] S4000x128.size inb_S4000x128_S4000x128_0_0
abbrev rN1 : Rect S256x128 := Rect.unit (s := S256x128) ![0, 0] S256x128.size inb_S256x128_S256x128_0_0
abbrev rB128 : Rect S128 := Rect.unit (s := S128) ![0] S128.size inb_S128_S128_0
abbrev rN2 : Rect S128x128 := Rect.unit (s := S128x128) ![0, 0] S128x128.size inb_S128x128_S128x128_0_0

/-! ## What the body leaves in the output buffer -/

/-- The output buffer after the body: its one whole store, the updated features of the block's 4000 nodes. -/
def nodeOut (x0 : Vec F S4000x256 .f32) (x1 : Vec F S4000x128 .f32) (x2 : Vec F S256x128 .f32) (x3 : Vec F S128 .f32)
    (x4 : Vec F S128x128 .f32) (x5 : Vec F S128 .f32) : Vec F S4000x128 .f32 :=
  View.canon [⟨rNf, k1_pay1 (View.ld x0 rNi) (View.ld x2 rN1) (View.ld x3 rB128) (View.ld x4 rN2) (View.ld x5 rB128) (View.ld x1 rNf)⟩]

/-- The one store covers the output buffer. -/
theorem cover_out (p0 : Vec F S4000x128 .f32) (y : S4000x128.Idx) :
    ∃ pc ∈ ([⟨rNf, p0⟩] : List (View.Piece (Elt F) S4000x128 .f32)), y ∈ pc.1.set :=
  View.cover_of_tiled [⟨rNf, p0⟩] S4000x128.size (by rfl) y

/-! ## The body's triple -/

set_option maxHeartbeats 4000000 in
/-- The body on whole staging buffers, the six inputs' at contents x0 … x5 and the output's at anything, runs to the
    continuation with the inputs as they were and the output at nodeOut of them. -/
theorem sound_kernel (c : Dev nD) (E : Set ℕ) (i : grid1.Coords)
    (arg1 : Memref sig .tc .vmem S4000x256 .f32) (harg1 : arg1.IsWhole) (arg2 : Memref sig .tc .vmem S4000x128 .f32) (harg2 : arg2.IsWhole)
    (arg3 : Memref sig .tc .vmem S256x128 .f32) (harg3 : arg3.IsWhole) (arg4 : Memref sig .tc .vmem S128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S4000x128 .f32) (harg7 : arg7.IsWhole)
    (x0 : Vec F S4000x256 .f32) (x1 : Vec F S4000x128 .f32) (x2 : Vec F S256x128 .f32) (x3 : Vec F S128 .f32)
    (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (nodeOut x0 x1 x2 x3 x4 x5)) -∗ K ⟨⟩))
      ⊢ wp frame (wpE (defs₀ (F := F)) Variants.none c none) E
          (cc1__node_mlp_kernel i arg1 harg1 arg2 harg2 arg3 harg3 arg4 harg4 arg5 harg5 arg6 harg6 arg7 harg7) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The call's proof data -/

/-- The proof data of the node call on core c: the arrays as the call finds them; after the body at point t each
    input's buffer at its block and the output buffer at nodeOut of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => nodeOut (blockAt V c 0 t) (blockAt V c 1 t) (blockAt V c 2 t) (blockAt V c 3 t) (blockAt V c 4 t) (blockAt V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = blockAt V c 5 t := by dsimp only [dat]
theorem after_out (c : Dev nD) (t : Fin cfg1.N) : (dat V c).after 6 t =
    nodeOut (blockAt V c 0 t) (blockAt V c 1 t) (blockAt V c 2 t) (blockAt V c 3 t) (blockAt V c 4 t) (blockAt V c 5 t) := by dsimp only [dat]

theorem before0 (c : Dev nD) (t : Fin cfg1.N) (d) : (dat V c).before 0 t d = blockAt V c 0 t := before_in0 V (dat V c) (A_eq V c 0) (after0 V c) t d
theorem before1 (c : Dev nD) (t : Fin cfg1.N) (d) : (dat V c).before 1 t d = blockAt V c 1 t := before_in1 V (dat V c) (A_eq V c 1) (after1 V c) t d
theorem before2 (c : Dev nD) (t : Fin cfg1.N) (d) : (dat V c).before 2 t d = blockAt V c 2 t := before_in2 V (dat V c) (A_eq V c 2) (after2 V c) t d
theorem before3 (c : Dev nD) (t : Fin cfg1.N) (d) : (dat V c).before 3 t d = blockAt V c 3 t := before_in3 V (dat V c) (A_eq V c 3) (after3 V c) t d
theorem before4 (c : Dev nD) (t : Fin cfg1.N) (d) : (dat V c).before 4 t d = blockAt V c 4 t := before_in4 V (dat V c) (A_eq V c 4) (after4 V c) t d
theorem before5 (c : Dev nD) (t : Fin cfg1.N) (d) : (dat V c).before 5 t d = blockAt V c 5 t := before_in5 V (dat V c) (A_eq V c 5) (after5 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blockAt V c 0 t) (blockAt V c 1 t) (blockAt V c 2 t) (blockAt V c 3 t)
    (blockAt V c 4 t) (blockAt V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dat (F := F) V c) (defs₀ (F := F)) Variants.none () Set.univ := fun t => by
  rw [bigSep_W1, bigSep_W1]
  exact sound_body V c t

end Cert.KernelIdeal.Node

end
-- ==== Proof.KIRun.lean ====
/-
  The whole program as a chain of seven items — host operations, the edge call, host operations, the node call, three
  stretches of host operations — and what every buffer holds between two of them.  Between items the TensorCore's
  unscoped buffers hold a fold of the launch memory: a stretch of host operations applies its operations; a call
  changes exactly its output arrays, each to what its write-backs leave.  One run of the chain names every buffer's
  final contents; that no item writes an argument is read off the fold, and with it the frame.
-/
import proofs.«110601_j7275674599802_1_alg».proof.Proof.KIEdge
import proofs.«110601_j7275674599802_1_alg».proof.Proof.KINode
import proofs.«110601_j7275674599802_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's buffers at launch. -/
abbrev H0 (c : Dev nD) : Valuation τ sig (Elt F) := fun b => m (c, b)
/-- After the first stretch of host operations (the edge call's entry). -/
abbrev H1 (c : Dev nD) : Valuation τ sig (Elt F) := StableHlo.after hostOps0 (H0 m c)
/-- The same read at the TensorCore's references. -/
abbrev V1 : (c : Dev nD) → (b : Ref sig .tc) → Buf (Elt F) ((c : Thread nD τ).loc b) := fun c b => H1 m c b
/-- At the edge call's exit: its arrays at what the pipeline leaves, every other buffer as entered. -/
def H2 (c : Dev nD) : Valuation τ sig (Elt F) :=
  Pipeline.withArrays spec0 c (H1 m c) fun w => (Edge.dat (V1 m) c).arrAt w cfg0.N
theorem H2_arr (c : Dev nD) (w : Fin cfg0.W) :
    H2 m c (Proc.devRef .tc (Pipeline.arrRef spec0 w)) = (Edge.dat (V1 m) c).arrAt w cfg0.N := by
  unfold H2; exact Pipeline.withArrays_arr spec0 launch0.win.arr_inj c _ _ w
theorem H2_of_ne (c : Dev nD) (b : Ref sig .tc) (hb : ∀ w, Pipeline.arrRef spec0 w ≠ b) :
    H2 m c (Proc.devRef .tc b) = H1 m c (Proc.devRef .tc b) := by
  unfold H2; exact Pipeline.withArrays_of_ne spec0 c _ _ b hb
abbrev V2 : (c : Dev nD) → (b : Ref sig .tc) → Buf (Elt F) ((c : Thread nD τ).loc b) := fun c b => H2 m c b
theorem exitArr0 (c : Dev nD) (w : Fin cfg0.W) : (Edge.dat (V1 m) c).arrAt w cfg0.N = V2 m c (Pipeline.arrRef spec0 w) :=
  (H2_arr m c w).symm
theorem exitRest0 (c : Dev nD) : ∀ b, b ∉ Finset.univ.image (Pipeline.arrRef spec0) → V2 m c b = V1 m c b :=
  fun b hb => H2_of_ne m c b fun w e => hb (Finset.mem_image.mpr ⟨w, Finset.mem_univ _, e⟩)

/-- After the second stretch (the node call's entry). -/
abbrev H3 (c : Dev nD) : Valuation τ sig (Elt F) := StableHlo.after hostOps1 (H2 m c)
abbrev V3 : (c : Dev nD) → (b : Ref sig .tc) → Buf (Elt F) ((c : Thread nD τ).loc b) := fun c b => H3 m c b
/-- At the node call's exit. -/
def H4 (c : Dev nD) : Valuation τ sig (Elt F) :=
  Pipeline.withArrays spec1 c (H3 m c) fun w => (Node.dat (V3 m) c).arrAt w cfg1.N
theorem H4_arr (c : Dev nD) (w : Fin cfg1.W) :
    H4 m c (Proc.devRef .tc (Pipeline.arrRef spec1 w)) = (Node.dat (V3 m) c).arrAt w cfg1.N := by
  unfold H4; exact Pipeline.withArrays_arr spec1 launch1.win.arr_inj c _ _ w
theorem H4_of_ne (c : Dev nD) (b : Ref sig .tc) (hb : ∀ w, Pipeline.arrRef spec1 w ≠ b) :
    H4 m c (Proc.devRef .tc b) = H3 m c (Proc.devRef .tc b) := by
  unfold H4; exact Pipeline.withArrays_of_ne spec1 c _ _ b hb
abbrev V4 : (c : Dev nD) → (b : Ref sig .tc) → Buf (Elt F) ((c : Thread nD τ).loc b) := fun c b => H4 m c b
theorem exitArr1 (c : Dev nD) (w : Fin cfg1.W) : (Node.dat (V3 m) c).arrAt w cfg1.N = V4 m c (Pipeline.arrRef spec1 w) :=
  (H4_arr m c w).symm
theorem exitRest1 (c : Dev nD) : ∀ b, b ∉ Finset.univ.image (Pipeline.arrRef spec1) → V4 m c b = V3 m c b :=
  fun b hb => H4_of_ne m c b fun w e => hb (Finset.mem_image.mpr ⟨w, Finset.mem_univ _, e⟩)

/-- After the three closing stretches. -/
abbrev H5 (c : Dev nD) : Valuation τ sig (Elt F) := StableHlo.after hostOps2 (H4 m c)
abbrev H6 (c : Dev nD) : Valuation τ sig (Elt F) := StableHlo.after hostOps2_1 (H5 m c)
abbrev H7 (c : Dev nD) : Valuation τ sig (Elt F) := StableHlo.after hostOps2_2 (H6 m c)

/-! ## What a stretch of host operations leaves alone -/

theorem keep0 (Wv : Valuation τ sig (Elt F)) (r : Ref sig .tc) (h : r ∉ hostOps0_W) : StableHlo.after hostOps0 Wv r = Wv r :=
  StableHlo.after_of_writes_sub hostOps0 _ hostOps0_writes h
theorem keep1 (Wv : Valuation τ sig (Elt F)) (r : Ref sig .tc) (h : r ∉ hostOps1_W) : StableHlo.after hostOps1 Wv r = Wv r :=
  StableHlo.after_of_writes_sub hostOps1 _ hostOps1_writes h
theorem keep2 (Wv : Valuation τ sig (Elt F)) (r : Ref sig .tc) (h : r ∉ hostOps2_W) : StableHlo.after hostOps2 Wv r = Wv r :=
  StableHlo.after_of_writes_sub hostOps2 _ hostOps2_writes h
theorem keep21 (Wv : Valuation τ sig (Elt F)) (r : Ref sig .tc) (h : r ∉ hostOps2_1_W) : StableHlo.after hostOps2_1 Wv r = Wv r :=
  StableHlo.after_of_writes_sub hostOps2_1 _ hostOps2_1_writes h
theorem keep22 (Wv : Valuation τ sig (Elt F)) (r : Ref sig .tc) (h : r ∉ hostOps2_2_W) : StableHlo.after hostOps2_2 Wv r = Wv r :=
  StableHlo.after_of_writes_sub hostOps2_2 _ hostOps2_2_writes h

/-! ## The arguments end as launched: no host operation writes one, and a call reads an argument through an input
    window or not at all -/

theorem H7_arg0 (c : Dev nD) : H7 m c main_arg0 = m ((c : Thread nD τ).loc main_arg0) :=
  (keep22 _ main_arg0 (by decide)).trans <| (keep21 _ main_arg0 (by decide)).trans <| (keep2 _ main_arg0 (by decide)).trans <|
    ((H4_arr m c 1).trans (((Node.dat (V3 m) c).arrAt_in 1 rfl _).trans (Node.A_eq (V3 m) c 1))).trans <| (keep1 _ main_arg0 (by decide)).trans <|
    (H2_of_ne m c main_arg0 (by decide)).trans <| (keep0 _ main_arg0 (by decide)).trans rfl
theorem H7_arg1 (c : Dev nD) : H7 m c main_arg1 = m ((c : Thread nD τ).loc main_arg1) :=
  (keep22 _ main_arg1 (by decide)).trans <| (keep21 _ main_arg1 (by decide)).trans <| (keep2 _ main_arg1 (by decide)).trans <|
    (H4_of_ne m c main_arg1 (by decide)).trans <| (keep1 _ main_arg1 (by decide)).trans <|
    (H2_of_ne m c main_arg1 (by decide)).trans <| (keep0 _ main_arg1 (by decide)).trans rfl
theorem H7_arg2 (c : Dev nD) : H7 m c main_arg2 = m ((c : Thread nD τ).loc main_arg2) :=
  (keep22 _ main_arg2 (by decide)).trans <| (keep21 _ main_arg2 (by decide)).trans <| (keep2 _ main_arg2 (by decide)).trans <|
    (H4_of_ne m c main_arg2 (by decide)).trans <| (keep1 _ main_arg2 (by decide)).trans <|
    (H2_of_ne m c main_arg2 (by decide)).trans <| (keep0 _ main_arg2 (by decide)).trans rfl
theorem H7_arg3 (c : Dev nD) : H7 m c main_arg3 = m ((c : Thread nD τ).loc main_arg3) :=
  (keep22 _ main_arg3 (by decide)).trans <| (keep21 _ main_arg3 (by decide)).trans <| (keep2 _ main_arg3 (by decide)).trans <|
    (H4_of_ne m c main_arg3 (by decide)).trans <| (keep1 _ main_arg3 (by decide)).trans <|
    (H2_of_ne m c main_arg3 (by decide)).trans <| (keep0 _ main_arg3 (by decide)).trans rfl
theorem H7_arg4 (c : Dev nD) : H7 m c main_arg4 = m ((c : Thread nD τ).loc main_arg4) :=
  (keep22 _ main_arg4 (by decide)).trans <| (keep21 _ main_arg4 (by decide)).trans <| (keep2 _ main_arg4 (by decide)).trans <|
    (H4_of_ne m c main_arg4 (by decide)).trans <| (keep1 _ main_arg4 (by decide)).trans <|
    ((H2_arr m c 1).trans (((Edge.dat (V1 m) c).arrAt_in 1 rfl _).trans (Edge.A_eq (V1 m) c 1))).trans <| (keep0 _ main_arg4 (by decide)).trans rfl
theorem H7_arg5 (c : Dev nD) : H7 m c main_arg5 = m ((c : Thread nD τ).loc main_arg5) :=
  (keep22 _ main_arg5 (by decide)).trans <| (keep21 _ main_arg5 (by decide)).trans <| (keep2 _ main_arg5 (by decide)).trans <|
    (H4_of_ne m c main_arg5 (by decide)).trans <| (keep1 _ main_arg5 (by decide)).trans <|
    ((H2_arr m c 2).trans (((Edge.dat (V1 m) c).arrAt_in 2 rfl _).trans (Edge.A_eq (V1 m) c 2))).trans <| (keep0 _ main_arg5 (by decide)).trans rfl
theorem H7_arg6 (c : Dev nD) : H7 m c main_arg6 = m ((c : Thread nD τ).loc main_arg6) :=
  (keep22 _ main_arg6 (by decide)).trans <| (keep21 _ main_arg6 (by decide)).trans <| (keep2 _ main_arg6 (by decide)).trans <|
    (H4_of_ne m c main_arg6 (by decide)).trans <| (keep1 _ main_arg6 (by decide)).trans <|
    ((H2_arr m c 3).trans (((Edge.dat (V1 m) c).arrAt_in 3 rfl _).trans (Edge.A_eq (V1 m) c 3))).trans <| (keep0 _ main_arg6 (by decide)).trans rfl
theorem H7_arg7 (c : Dev nD) : H7 m c main_arg7 = m ((c : Thread nD τ).loc main_arg7) :=
  (keep22 _ main_arg7 (by decide)).trans <| (keep21 _ main_arg7 (by decide)).trans <| (keep2 _ main_arg7 (by decide)).trans <|
    (H4_of_ne m c main_arg7 (by decide)).trans <| (keep1 _ main_arg7 (by decide)).trans <|
    ((H2_arr m c 4).trans (((Edge.dat (V1 m) c).arrAt_in 4 rfl _).trans (Edge.A_eq (V1 m) c 4))).trans <| (keep0 _ main_arg7 (by decide)).trans rfl
theorem H7_arg8 (c : Dev nD) : H7 m c main_arg8 = m ((c : Thread nD τ).loc main_arg8) :=
  (keep22 _ main_arg8 (by decide)).trans <| (keep21 _ main_arg8 (by decide)).trans <| (keep2 _ main_arg8 (by decide)).trans <|
    ((H4_arr m c 2).trans (((Node.dat (V3 m) c).arrAt_in 2 rfl _).trans (Node.A_eq (V3 m) c 2))).trans <| (keep1 _ main_arg8 (by decide)).trans <|
    (H2_of_ne m c main_arg8 (by decide)).trans <| (keep0 _ main_arg8 (by decide)).trans rfl
theorem H7_arg9 (c : Dev nD) : H7 m c main_arg9 = m ((c : Thread nD τ).loc main_arg9) :=
  (keep22 _ main_arg9 (by decide)).trans <| (keep21 _ main_arg9 (by decide)).trans <| (keep2 _ main_arg9 (by decide)).trans <|
    ((H4_arr m c 3).trans (((Node.dat (V3 m) c).arrAt_in 3 rfl _).trans (Node.A_eq (V3 m) c 3))).trans <| (keep1 _ main_arg9 (by decide)).trans <|
    (H2_of_ne m c main_arg9 (by decide)).trans <| (keep0 _ main_arg9 (by decide)).trans rfl
theorem H7_arg10 (c : Dev nD) : H7 m c main_arg10 = m ((c : Thread nD τ).loc main_arg10) :=
  (keep22 _ main_arg10 (by decide)).trans <| (keep21 _ main_arg10 (by decide)).trans <| (keep2 _ main_arg10 (by decide)).trans <|
    ((H4_arr m c 4).trans (((Node.dat (V3 m) c).arrAt_in 4 rfl _).trans (Node.A_eq (V3 m) c 4))).trans <| (keep1 _ main_arg10 (by decide)).trans <|
    (H2_of_ne m c main_arg10 (by decide)).trans <| (keep0 _ main_arg10 (by decide)).trans rfl
theorem H7_arg11 (c : Dev nD) : H7 m c main_arg11 = m ((c : Thread nD τ).loc main_arg11) :=
  (keep22 _ main_arg11 (by decide)).trans <| (keep21 _ main_arg11 (by decide)).trans <| (keep2 _ main_arg11 (by decide)).trans <|
    ((H4_arr m c 5).trans (((Node.dat (V3 m) c).arrAt_in 5 rfl _).trans (Node.A_eq (V3 m) c 5))).trans <| (keep1 _ main_arg11 (by decide)).trans <|
    (H2_of_ne m c main_arg11 (by decide)).trans <| (keep0 _ main_arg11 (by decide)).trans rfl
theorem H7_arg12 (c : Dev nD) : H7 m c main_arg12 = m ((c : Thread nD τ).loc main_arg12) :=
  (keep22 _ main_arg12 (by decide)).trans <| (keep21 _ main_arg12 (by decide)).trans <| (keep2 _ main_arg12 (by decide)).trans <|
    (H4_of_ne m c main_arg12 (by decide)).trans <| (keep1 _ main_arg12 (by decide)).trans <|
    ((H2_arr m c 5).trans (((Edge.dat (V1 m) c).arrAt_in 5 rfl _).trans (Edge.A_eq (V1 m) c 5))).trans <| (keep0 _ main_arg12 (by decide)).trans rfl
theorem H7_arg13 (c : Dev nD) : H7 m c main_arg13 = m ((c : Thread nD τ).loc main_arg13) :=
  (keep22 _ main_arg13 (by decide)).trans <| (keep21 _ main_arg13 (by decide)).trans <| (keep2 _ main_arg13 (by decide)).trans <|
    (H4_of_ne m c main_arg13 (by decide)).trans <| (keep1 _ main_arg13 (by decide)).trans <|
    ((H2_arr m c 6).trans (((Edge.dat (V1 m) c).arrAt_in 6 rfl _).trans (Edge.A_eq (V1 m) c 6))).trans <| (keep0 _ main_arg13 (by decide)).trans rfl
theorem H7_arg14 (c : Dev nD) : H7 m c main_arg14 = m ((c : Thread nD τ).loc main_arg14) :=
  (keep22 _ main_arg14 (by decide)).trans <| (keep21 _ main_arg14 (by decide)).trans <| (keep2 _ main_arg14 (by decide)).trans <|
    (H4_of_ne m c main_arg14 (by decide)).trans <| (keep1 _ main_arg14 (by decide)).trans <|
    ((H2_arr m c 7).trans (((Edge.dat (V1 m) c).arrAt_in 7 rfl _).trans (Edge.A_eq (V1 m) c 7))).trans <| (keep0 _ main_arg14 (by decide)).trans rfl
theorem H7_arg15 (c : Dev nD) : H7 m c main_arg15 = m ((c : Thread nD τ).loc main_arg15) :=
  (keep22 _ main_arg15 (by decide)).trans <| (keep21 _ main_arg15 (by decide)).trans <| (keep2 _ main_arg15 (by decide)).trans <|
    (H4_of_ne m c main_arg15 (by decide)).trans <| (keep1 _ main_arg15 (by decide)).trans <|
    ((H2_arr m c 8).trans (((Edge.dat (V1 m) c).arrAt_in 8 rfl _).trans (Edge.A_eq (V1 m) c 8))).trans <| (keep0 _ main_arg15 (by decide)).trans rfl

/-! ## The proof data family and the thread state -/

/-- No call has a prefetched table. -/
abbrev noTables : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) noTables p) c
  | ⟨0, _⟩ => fun c => Edge.dat (V1 m) c
  | ⟨1, _⟩ => fun c => Node.dat (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents Wv. -/
abbrev hostItem (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tlast (c : Dev nD) : sProp 𝕄 := iprop(StableHlo.held (c : Thread nD τ) (Pipeline.ucRefs τ sig) (H7 m c) ∗ ∃ r, prngReg c r)

/-! ## The calls as items -/

set_option backward.isDefEq.respectTransparency.types false in
/-- The edge call: entered from every unscoped buffer at H1, left at H2. -/
def edgeItem : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (V1 m) c).loose
  hwaits := Pipeline.hwaits_of_owed_zero _ _ _ _ L lv 0 fun _ _ => rfl
  pre c := iprop(StableHlo.held (c : Thread nD τ) (Pipeline.ucRefs τ sig) (H1 m c) ∗ R c)
  post c := iprop(StableHlo.held (c : Thread nD τ) (Pipeline.ucRefs τ sig) (H2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node call: entered from every unscoped buffer at H3, left at H4. -/
def nodeItem : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (V3 m) c).loose
  hwaits := Pipeline.hwaits_of_owed_zero _ _ _ _ L lv 1 fun _ _ => rfl
  pre c := iprop(StableHlo.held (c : Thread nD τ) (Pipeline.ucRefs τ sig) (H3 m c) ∗ R c)
  post c := iprop(StableHlo.held (c : Thread nD τ) (Pipeline.ucRefs τ sig) (H4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The seven items in order. -/
abbrev items : List (Pipeline.Seg (pcfgs (F := F)) noTables (pdats m) () defs₀ 𝒱₀ L lv) :=
  [ .host (hostItem hostOps0 hostOps0_sub hostOps0_fresh (H0 m)),
    .region (edgeItem m),
    .host (hostItem hostOps1 hostOps1_sub hostOps1_fresh (H2 m)),
    .region (nodeItem m),
    .host (hostItem hostOps2 hostOps2_sub hostOps2_fresh (H4 m)),
    .host (hostItem hostOps2_1 hostOps2_1_sub hostOps2_1_fresh (H5 m)),
    .host (hostItem hostOps2_2 hostOps2_2_sub hostOps2_2_fresh (H6 m)) ]

/-- The program is the run of its items. -/
theorem main_items (c : Dev nD) : main (F := F) c = Pipeline.Seg.run (items m) := (main_chain c).trans (by chain_rfl)

set_option backward.isDefEq.respectTransparency.types false in
/-- From any memory with zero counters every weakly fair execution of the program terminates, nothing faulting, and
    every unscoped buffer of every core ends at the fold's last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = H7 m c b) :=
  Pipeline.θ_run_regions_kit (pcfgs (F := F)) noTables (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (H0 m c) ∗ R c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (H7 m c) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (H0 m c)
        from Pipeline.unscopedBufs_held c (H0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = H7 m c b)
    (hfin := fun c s' => by
      iintro ⟨⟨Hh, -⟩, HSI⟩
      unfold StableHlo.held
      imodintro
      iapply (pointsTo_read_all (Pipeline.ucRefs τ sig) (fun b => (((c : Thread nD τ)).1, b)) (H7 m c) s')
      isplitl [Hh] <;> iassumption)
    (hQ := fun s h => h)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (H7_arg0 m c),
     (h c _ (mem_uc main_arg1 (by decide))).trans (H7_arg1 m c),
     (h c _ (mem_uc main_arg2 (by decide))).trans (H7_arg2 m c),
     (h c _ (mem_uc main_arg3 (by decide))).trans (H7_arg3 m c),
     (h c _ (mem_uc main_arg4 (by decide))).trans (H7_arg4 m c),
     (h c _ (mem_uc main_arg5 (by decide))).trans (H7_arg5 m c),
     (h c _ (mem_uc main_arg6 (by decide))).trans (H7_arg6 m c),
     (h c _ (mem_uc main_arg7 (by decide))).trans (H7_arg7 m c),
     (h c _ (mem_uc main_arg8 (by decide))).trans (H7_arg8 m c),
     (h c _ (mem_uc main_arg9 (by decide))).trans (H7_arg9 m c),
     (h c _ (mem_uc main_arg10 (by decide))).trans (H7_arg10 m c),
     (h c _ (mem_uc main_arg11 (by decide))).trans (H7_arg11 m c),
     (h c _ (mem_uc main_arg12 (by decide))).trans (H7_arg12 m c),
     (h c _ (mem_uc main_arg13 (by decide))).trans (H7_arg13 m c),
     (h c _ (mem_uc main_arg14 (by decide))).trans (H7_arg14 m c),
     (h c _ (mem_uc main_arg15 (by decide))).trans (H7_arg15 m c)⟩)
    (run_all m ρ)

end Cert.KernelIdeal.Run

end
-- ==== Proof.Spec.lean ====
/-
  The layer written row by row on the extended reals.

  silu x = x · σ(x), σ the logistic function.  One affine step of a row x against a weight matrix W and a bias b is
  Σ_k x_k · W(k, j) + b_j.  Along one edge the message is silu(silu(x·W1 + b1)·W2 + b2) for the edge's feature row x,
  the coordinate weight is silu(e·C1 + c1)·C2 + c2 for the edge's message row e, and along one node the update is
  f + (silu(y·N1 + n1)·N2 + n2) for the node's input row y and its own feature f.  Every result row depends on ONE row
  of the input matrix, which is why a matrix cut into blocks of rows is computed block by block.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- x · σ(x) on the extended reals. -/
def silu (x : EReal) : EReal := x * Ideal.logistic x

/-- One affine step at output column j: Σ_k x_k · W(k, j) + b_j. -/
def affine {D H : ℕ} (x : Fin D → EReal) (W : (⟨2, ![D, H]⟩ : Shape).Idx → EReal) (b : (⟨1, ![H]⟩ : Shape).Idx → EReal)
    (j : Fin H) : EReal :=
  (∑ k : Fin D, x k * W (ix2 k j)) + b (ix1 j)

/-- The row of a matrix index. -/
abbrev rowOf {N H : ℕ} (i : (⟨2, ![N, H]⟩ : Shape).Idx) : Fin N := ⟨(i 0).val, (i 0).isLt⟩
/-- The column of a matrix index. -/
abbrev colOf {N H : ℕ} (i : (⟨2, ![N, H]⟩ : Shape).Idx) : Fin H := ⟨(i 1).val, (i 1).isLt⟩

/-- The message along one edge, from the edge's feature row: silu(silu(x·W1 + b1)·W2 + b2) at column j. -/
def emRow (x : Fin 320 → EReal) (W1 : (⟨2, ![320, 128]⟩ : Shape).Idx → EReal) (b1 : (⟨1, ![128]⟩ : Shape).Idx → EReal)
    (W2 : (⟨2, ![128, 128]⟩ : Shape).Idx → EReal) (b2 : (⟨1, ![128]⟩ : Shape).Idx → EReal) (j : Fin 128) : EReal :=
  silu (affine (fun k => silu (affine x W1 b1 k)) W2 b2 j)

/-- The coordinate weight along one edge, from the edge's message row: silu(e·C1 + c1)·C2 + c2 (one column). -/
def cwRow (e : Fin 128 → EReal) (C1 : (⟨2, ![128, 64]⟩ : Shape).Idx → EReal) (c1 : (⟨1, ![64]⟩ : Shape).Idx → EReal)
    (C2 : (⟨2, ![64, 1]⟩ : Shape).Idx → EReal) (c2 : (⟨1, ![1]⟩ : Shape).Idx → EReal) : EReal :=
  affine (fun k => silu (affine e C1 c1 k)) C2 c2 0

/-- The updated feature of one node at column j, from the node's input row y and its own feature f:
    f + (silu(y·N1 + n1)·N2 + n2). -/
def nodeRow (y : Fin 256 → EReal) (f : EReal) (N1 : (⟨2, ![256, 128]⟩ : Shape).Idx → EReal)
    (n1 : (⟨1, ![128]⟩ : Shape).Idx → EReal) (N2 : (⟨2, ![128, 128]⟩ : Shape).Idx → EReal)
    (n2 : (⟨1, ![128]⟩ : Shape).Idx → EReal) (j : Fin 128) : EReal :=
  f + affine (fun k => silu (affine y N1 n1 k)) N2 n2 j

/-- All edge messages of a matrix of N feature rows. -/
def emArr {N : ℕ} (ef : (⟨2, ![N, 320]⟩ : Shape).Idx → EReal) (W1 : (⟨2, ![320, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![N, 128]⟩ : Shape).Idx → EReal :=
  fun i => emRow (fun l => ef (ix2 (rowOf i) l)) W1 b1 W2 b2 (colOf i)

/-- All coordinate weights of a matrix of N message rows. -/
def cwArr {N : ℕ} (em : (⟨2, ![N, 128]⟩ : Shape).Idx → EReal) (C1 : (⟨2, ![128, 64]⟩ : Shape).Idx → EReal)
    (c1 : (⟨1, ![64]⟩ : Shape).Idx → EReal) (C2 : (⟨2, ![64, 1]⟩ : Shape).Idx → EReal)
    (c2 : (⟨1, ![1]⟩ : Shape).Idx → EReal) : (⟨2, ![N, 1]⟩ : Shape).Idx → EReal :=
  fun i => cwRow (fun k => em (ix2 (rowOf i) k)) C1 c1 C2 c2

/-- All updated node features of a matrix of N input rows beside the N feature rows. -/
def nodeArr {N : ℕ} (ni : (⟨2, ![N, 256]⟩ : Shape).Idx → EReal) (nf : (⟨2, ![N, 128]⟩ : Shape).Idx → EReal)
    (N1 : (⟨2, ![256, 128]⟩ : Shape).Idx → EReal) (n1 : (⟨1, ![128]⟩ : Shape).Idx → EReal)
    (N2 : (⟨2, ![128, 128]⟩ : Shape).Idx → EReal) (n2 : (⟨1, ![128]⟩ : Shape).Idx → EReal) :
    (⟨2, ![N, 128]⟩ : Shape).Idx → EReal :=
  fun i => nodeRow (fun l => ni (ix2 (rowOf i) l)) (nf i) N1 n1 N2 n2 (colOf i)

theorem emArr_ix2 {N : ℕ} (ef : (⟨2, ![N, 320]⟩ : Shape).Idx → EReal) (W1 : (⟨2, ![320, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (r : Fin N) (j : Fin 128) :
    emArr ef W1 b1 W2 b2 (ix2 r j) = emRow (fun l => ef (ix2 r l)) W1 b1 W2 b2 j := rfl

theorem cwArr_ix2 {N : ℕ} (em : (⟨2, ![N, 128]⟩ : Shape).Idx → EReal) (C1 : (⟨2, ![128, 64]⟩ : Shape).Idx → EReal)
    (c1 : (⟨1, ![64]⟩ : Shape).Idx → EReal) (C2 : (⟨2, ![64, 1]⟩ : Shape).Idx → EReal)
    (c2 : (⟨1, ![1]⟩ : Shape).Idx → EReal) (r : Fin N) (u : Fin 1) :
    cwArr em C1 c1 C2 c2 (ix2 r u) = cwRow (fun k => em (ix2 r k)) C1 c1 C2 c2 := rfl

theorem nodeArr_ix2 {N : ℕ} (ni : (⟨2, ![N, 256]⟩ : Shape).Idx → EReal) (nf : (⟨2, ![N, 128]⟩ : Shape).Idx → EReal)
    (N1 : (⟨2, ![256, 128]⟩ : Shape).Idx → EReal) (n1 : (⟨1, ![128]⟩ : Shape).Idx → EReal)
    (N2 : (⟨2, ![128, 128]⟩ : Shape).Idx → EReal) (n2 : (⟨1, ![128]⟩ : Shape).Idx → EReal) (r : Fin N) (j : Fin 128) :
    nodeArr ni nf N1 n1 N2 n2 (ix2 r j) = nodeRow (fun l => ni (ix2 r l)) (nf (ix2 r j)) N1 n1 N2 n2 j := rfl

/-- The host's spelling of the logistic function, 1 / (1 + e^(-x)) over the word of 1.0, times x, is silu. -/
theorem host_silu (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = silu x := by
  have h1 : Ideal.ofBits .f32 0x3F800000#32 = 1 := by simp [Ideal.ofBits, Ideal.ieee, -EReal.coe_mul]; norm_num
  simp only [Ideal.ofBits_def, h1]
  rfl

/-- The kernel's spelling, x · logistic x, is silu. -/
theorem kernel_silu (x : Ideal .f32) : FloatOps.mulf x (FloatOps.logistic x) = silu x := rfl

end Cert.Spec

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.KIPayload.lean ====
/-
  The values the two calls store, read at one entry, on the extended reals.

  Every stored value is built from the same step: a block of rows X times a weight matrix W, accumulated into the zero
  matrix, plus a bias vector b laid along every row.  Read at entry (i, j) that is Σ_k X(i, k) · W(k, j) + b_j, the affine
  step of row i of X; the narrowing of both factors before the product changes nothing on the extended reals.  Followed
  by v ↦ v · σ(v) lane by lane it is silu of the affine step.  The edge call stores silu(silu(x·W1 + b1)·W2 + b2) and,
  from that message row e, silu(e·C1 + c1)·C2 + c2; the node call stores f + (silu(y·N1 + n1)·N2 + n2).  Each entry of a
  stored block therefore depends on one row of the block of inputs, and is the layer's row function at that row.
-/
import proofs.«110601_j7275674599802_1_alg».proof.Proof.Gen.KernelIdeal.Skeleton
import proofs.«110601_j7275674599802_1_alg».proof.Proof.Spec
import proofs.«110601_j7275674599802_1_alg».proof.Proof.LibRealFactor
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The building blocks, at any sizes -/

/-- A length-H vector viewed as a [1, H] row and stretched over the N rows of an [N, H] matrix reads, at (i, j), the
    vector at j: the view keeps the row-major position, and the stretch reads row 0 of the one-row operand. -/
theorem bias_entry {α : Type} {N H : ℕ} (b : (⟨1, ![H]⟩ : Shape).Idx → α)
    (hc : (⟨1, ![H]⟩ : Shape).ShapeCasts ⟨2, ![1, H]⟩) (hb : (⟨2, ![1, H]⟩ : Shape).Broadcasts ⟨2, ![N, H]⟩)
    (i : Fin N) (j : Fin H) :
    broadcastTo ⟨2, ![N, H]⟩ (shapeCast ⟨2, ![1, H]⟩ b hc) hb (ix2 i j) = b (ix1 j) := by
  refine (broadcastTo_apply _ hb (ix2 i j) (ix2 (0 : Fin 1) j) fun a => ?_).trans ?_
  · match a with
    | ⟨0, _⟩ => rfl
    | ⟨1, _⟩ =>
      -- when H = 1 the only column is column 0
      show j.val = if H = 1 then 0 else j.val
      split
      · have := j.isLt; omega
      · rfl
  · refine (shapeCast_addUnit_apply ![H] b hc (ix2 (0 : Fin 1) j)).trans ?_
    refine congrArg b ?_
    funext a
    match a with
    | ⟨0, _⟩ => rfl

/-- One affine step as the calls spell it: both factors narrowed, their product accumulated into the zero matrix,
    the bias laid along every row and added.  At entry (i, j) it is Σ_k X(i, k) · W(k, j) + b_j. -/
theorem affine_entry {N D H : ℕ} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![N, D]⟩ .f32) (W : FVec Ideal ⟨2, ![D, H]⟩ .f32) (b : FVec Ideal ⟨1, ![H]⟩ .f32)
    (hx : FTy.bits .bf16 < FTy.bits .f32) (hw : FTy.bits .bf16 < FTy.bits .f32)
    (hc : (⟨1, ![H]⟩ : Shape).ShapeCasts ⟨2, ![1, H]⟩) (hb : (⟨2, ![1, H]⟩ : Shape).Broadcasts ⟨2, ![N, H]⟩)
    (i : Fin N) (j : Fin H) :
    addf (matmul d none (truncf .bf16 X hx) (truncf .bf16 W hw) (constant ⟨2, ![N, H]⟩ .f32 0x00000000#32))
        (broadcastTo ⟨2, ![N, H]⟩ (shapeCast ⟨2, ![1, H]⟩ b hc) hb) (ix2 i j)
      = Cert.Spec.affine (fun k => X (ix2 i k)) W b j := by
  rw [addf_apply, Cert.Fold.matmul_zero_rows d h1 h2 h3 h4 h5 h6, bias_entry]
  -- the narrowing is the identity on extended reals
  rfl

/-- v · σ(v) lane by lane is silu of the lane. -/
theorem silu_entry {s : Shape} (v : FVec Ideal s .f32) (i : s.Idx) :
    mulf v (logistic v) i = Cert.Spec.silu (v i) := Cert.Spec.kernel_silu (v i)

/-- An affine step followed by v ↦ v · σ(v): at entry (i, j), silu of the affine step of row i. -/
theorem layer_entry {N D H : ℕ} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![N, D]⟩ .f32) (W : FVec Ideal ⟨2, ![D, H]⟩ .f32) (b : FVec Ideal ⟨1, ![H]⟩ .f32)
    (hx : FTy.bits .bf16 < FTy.bits .f32) (hw : FTy.bits .bf16 < FTy.bits .f32)
    (hc : (⟨1, ![H]⟩ : Shape).ShapeCasts ⟨2, ![1, H]⟩) (hb : (⟨2, ![1, H]⟩ : Shape).Broadcasts ⟨2, ![N, H]⟩)
    (i : Fin N) (j : Fin H) :
    mulf
        (addf (matmul d none (truncf .bf16 X hx) (truncf .bf16 W hw) (constant ⟨2, ![N, H]⟩ .f32 0x00000000#32))
          (broadcastTo ⟨2, ![N, H]⟩ (shapeCast ⟨2, ![1, H]⟩ b hc) hb))
        (logistic
          (addf (matmul d none (truncf .bf16 X hx) (truncf .bf16 W hw) (constant ⟨2, ![N, H]⟩ .f32 0x00000000#32))
            (broadcastTo ⟨2, ![N, H]⟩ (shapeCast ⟨2, ![1, H]⟩ b hc) hb)))
        (ix2 i j)
      = Cert.Spec.silu (Cert.Spec.affine (fun k => X (ix2 i k)) W b j) :=
  (silu_entry _ _).trans (congrArg Cert.Spec.silu (affine_entry d h1 h2 h3 h4 h5 h6 X W b hx hw hc hb i j))

/-! ## The three stored values -/

/-- The stored message block at (p, j): the message of row p of the block of edge features, at column j. -/
theorem em_entry (x0 : Vec Ideal S4000x320 .f32) (x1 : Vec Ideal S320x128 .f32) (x2 : Vec Ideal S128 .f32)
    (x3 : Vec Ideal S128x128 .f32) (x4 : Vec Ideal S128 .f32) (p : Fin 4000) (j : Fin 128) :
    k0_pay2 (F := Ideal) x0 x1 x2 x3 x4 (ix2 p j) = Cert.Spec.emRow (fun l => x0 (ix2 p l)) x1 x2 x3 x4 j := by
  unfold k0_pay2
  -- the second layer, over the first layer's block
  refine (layer_entry _ rfl rfl rfl rfl rfl rfl _ x3 x4 _ _ _ _ p j).trans ?_
  unfold Cert.Spec.emRow
  refine congrArg Cert.Spec.silu (congrArg (fun f => Cert.Spec.affine f x3 x4 j) (funext fun k => ?_))
  -- the first layer, over the block of features (its view at its own shape is itself)
  refine (layer_entry _ rfl rfl rfl rfl rfl rfl _ x1 x2 _ _ _ _ p k).trans ?_
  rw [shapeCast_self]

/-- The stored coordinate-weight block at (p, u): the coordinate weight of the message row of row p. -/
theorem cw_entry (x0 : Vec Ideal S4000x320 .f32) (x1 : Vec Ideal S320x128 .f32) (x2 : Vec Ideal S128 .f32)
    (x3 : Vec Ideal S128x128 .f32) (x4 : Vec Ideal S128 .f32) (x5 : Vec Ideal S128x64 .f32) (x6 : Vec Ideal S64 .f32)
    (x7 : Vec Ideal S64x1 .f32) (x8 : Vec Ideal S1 .f32) (p : Fin 4000) (u : Fin 1) :
    k0_pay1 (F := Ideal) (k0_pay3 (F := Ideal) x0 x1 x2 x3 x4 x5 x6 x7) x8 (ix2 p u)
      = Cert.Spec.cwRow (fun k => Cert.Spec.emRow (fun l => x0 (ix2 p l)) x1 x2 x3 x4 k) x5 x6 x7 x8 := by
  unfold k0_pay1 k0_pay3
  -- the last affine step (one column), over the hidden layer's block
  refine (affine_entry _ rfl rfl rfl rfl rfl rfl _ x7 x8 _ _ _ _ p u).trans ?_
  obtain rfl : u = 0 := Subsingleton.elim _ _
  unfold Cert.Spec.cwRow
  refine congrArg (fun f => Cert.Spec.affine f x7 x8 0) (funext fun k => ?_)
  -- the hidden layer, over the message block
  refine (layer_entry _ rfl rfl rfl rfl rfl rfl _ x5 x6 _ _ _ _ p k).trans ?_
  refine congrArg Cert.Spec.silu (congrArg (fun f => Cert.Spec.affine f x5 x6 k) (funext fun l => ?_))
  exact em_entry x0 x1 x2 x3 x4 p l

/-- The stored node block at (p, j): the node's own feature plus the update from row p of the block of node inputs. -/
theorem node_entry (x0 : Vec Ideal S4000x256 .f32) (x3 : Vec Ideal S256x128 .f32) (x6 : Vec Ideal S128 .f32)
    (x12 : Vec Ideal S128x128 .f32) (x16 : Vec Ideal S128 .f32) (x20 : Vec Ideal S4000x128 .f32) (p : Fin 4000) (j : Fin 128) :
    k1_pay1 (F := Ideal) x0 x3 x6 x12 x16 x20 (ix2 p j)
      = Cert.Spec.nodeRow (fun l => x0 (ix2 p l)) (x20 (ix2 p j)) x3 x6 x12 x16 j := by
  unfold k1_pay1
  rw [addf_apply]
  unfold Cert.Spec.nodeRow
  refine congrArg (fun t => x20 (ix2 p j) + t) ?_
  -- the second affine step, over the hidden layer's block
  refine (affine_entry _ rfl rfl rfl rfl rfl rfl _ x12 x16 _ _ _ _ p j).trans ?_
  refine congrArg (fun f => Cert.Spec.affine f x12 x16 j) (funext fun k => ?_)
  -- the hidden layer, over the block of node inputs (its view at its own shape is itself)
  refine (layer_entry _ rfl rfl rfl rfl rfl rfl _ x3 x6 _ _ _ _ p k).trans ?_
  rw [shapeCast_self]

end Cert.KernelIdeal.Payload

end
-- ==== Proof.KIArrays.lean ====
/-
  From blocks to whole arrays.  Each call cuts its row-indexed arrays into blocks of 4000 rows and visits the blocks one
  after another; the weights and biases are handed over whole at every visit.  The layer is a row-by-row function:
  row r of a result depends on row r of the row-indexed inputs only.  So the block of results computed at visit t, whose
  row p comes from rows 4000·t + p of the inputs, is rows 4000·t … 4000·t + 3999 of the whole-array result, and since
  the blocks 0 … N/4000 − 1 tile the rows, the output array ends holding the whole-array result: the messages and the
  coordinate weights of all 640000 edges after the first call, the updated features of all 20000 nodes after the
  second.
-/
import proofs.«110601_j7275674599802_1_alg».proof.Proof.KIEdge
import proofs.«110601_j7275674599802_1_alg».proof.Proof.KINode
import proofs.«110601_j7275674599802_1_alg».proof.Proof.KIPayload
import proofs.«110601_j7275674599802_1_alg».proof.Proof.Spec
import Idealize.ShloMosaic.Lib.Pipeline.Value
import Idealize.ShloMosaic.Lib.ValueIdx

-- a block has 4000 rows: a structural look at one of its indices goes coordinate by coordinate
set_option maxRecDepth 16384

noncomputable section

namespace Cert.KernelIdeal.Arrays

open Cert.KernelIdeal Cert.KernelIdeal.Gen
open Idealize.ShloMosaic Idealize.ShloMosaic.TcCoe Idealize.ShloMosaic.ValueIdx
open Idealize.SL.Sem
open Idealize.ShloMosaic.Pipeline (Dat)

-- the arrays' contents when a call is entered, on the extended reals
variable (V : (c : Dev nD) → (b : Ref sig .tc) → Buf (Elt Ideal) ((c : Thread nD τ).loc b))

/-- The zero offsets of a matrix, however spelt. -/
theorem hz2 : (![0, 0] : Fin 2 → Nat) = fun _ => 0 := funext fun a => by fin_cases a <;> rfl
/-- The zero offset of a vector, however spelt. -/
theorem hz1 : (![0] : Fin 1 → Nat) = fun _ => 0 := funext fun a => by fin_cases a; rfl

/-! ## A block's rows are the array's rows

The layer works row by row, so a block whose row p is row r of the whole matrix has, at row p, the whole-array
result's row r. -/

/-- The message row computed from row p of a feature block that is row r of the feature matrix is row r of all
    messages. -/
theorem em_of_row (ef : S640000x320.Idx → EReal) (W1 : S320x128.Idx → EReal) (b1 : S128.Idx → EReal) (W2 : S128x128.Idx → EReal)
    (b2 : S128.Idx → EReal) (x0 : S4000x320.Idx → EReal) (p : Fin 4000) (r : Fin 640000)
    (h : ∀ l : Fin 320, x0 (ix2 p l) = ef (ix2 r l)) (j : Fin 128) :
    Cert.Spec.emRow (fun l => x0 (ix2 p l)) W1 b1 W2 b2 j = Cert.Spec.emArr ef W1 b1 W2 b2 (ix2 r j) := by
  rw [Cert.Spec.emArr_ix2, show (fun l => x0 (ix2 p l)) = fun l => ef (ix2 r l) from funext h]

/-- The same for the coordinate weight, which is computed from the message row. -/
theorem cw_of_row (ef : S640000x320.Idx → EReal) (W1 : S320x128.Idx → EReal) (b1 : S128.Idx → EReal) (W2 : S128x128.Idx → EReal)
    (b2 : S128.Idx → EReal) (C1 : S128x64.Idx → EReal) (c1 : S64.Idx → EReal) (C2 : S64x1.Idx → EReal) (c2 : S1.Idx → EReal)
    (x0 : S4000x320.Idx → EReal) (p : Fin 4000) (r : Fin 640000)
    (h : ∀ l : Fin 320, x0 (ix2 p l) = ef (ix2 r l)) (u : Fin 1) :
    Cert.Spec.cwRow (fun k => Cert.Spec.emRow (fun l => x0 (ix2 p l)) W1 b1 W2 b2 k) C1 c1 C2 c2
      = Cert.Spec.cwArr (Cert.Spec.emArr ef W1 b1 W2 b2) C1 c1 C2 c2 (ix2 r u) := by
  rw [Cert.Spec.cwArr_ix2, show (fun k => Cert.Spec.emArr ef W1 b1 W2 b2 (ix2 r k))
    = fun k => Cert.Spec.emRow (fun l => x0 (ix2 p l)) W1 b1 W2 b2 k from funext fun k => (em_of_row ef W1 b1 W2 b2 x0 p r h k).symm]

/-- The same for a node: row p of the input block is row r of the input matrix and row p of the feature block is row r
    of the feature matrix, so the updated row is row r of all updated features. -/
theorem node_of_row (ni : S20000x256.Idx → EReal) (nf : S20000x128.Idx → EReal) (N1 : S256x128.Idx → EReal) (n1 : S128.Idx → EReal)
    (N2 : S128x128.Idx → EReal) (n2 : S128.Idx → EReal) (x0 : S4000x256.Idx → EReal) (x1 : S4000x128.Idx → EReal)
    (p : Fin 4000) (r : Fin 20000) (h0 : ∀ l : Fin 256, x0 (ix2 p l) = ni (ix2 r l))
    (h1 : ∀ j : Fin 128, x1 (ix2 p j) = nf (ix2 r j)) (j : Fin 128) :
    Cert.Spec.nodeRow (fun l => x0 (ix2 p l)) (x1 (ix2 p j)) N1 n1 N2 n2 j = Cert.Spec.nodeArr ni nf N1 n1 N2 n2 (ix2 r j) := by
  rw [Cert.Spec.nodeArr_ix2, show (fun l => x0 (ix2 p l)) = fun l => ni (ix2 r l) from funext h0, h1 j]

/-! ## The edge call's blocks -/

/-- Where the edge call's blocks sit: at visit t the feature block and the two output blocks are block t of their
    rows, and each weight or bias array is its one block. -/
theorem edge_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row p of the feature block at visit t is row 4000·t + p of the feature matrix. -/
theorem ef_block (c : Dev nD) (t : Fin cfg0.N) (p : Fin 4000) (l : Fin 320) :
    Edge.blockAt V c 0 t (ix2 p l)
      = V c main_v18 (ix2 (n0 := 640000) ⟨4000 * t.val + p.val, by have : t.val < 160 := t.isLt; omega⟩ l) := by
  show V c main_v18 (((cfg0.win 0).blk t).view.emb (ix2 p l)) = _
  congr 1
  funext a; apply Fin.ext
  have h := edge_index t
  match a with
  | ⟨0, _⟩ => show win0_0.index t (0 : Fin 2) * 4000 + 1 * p.val = 4000 * t.val + p.val; omega
  | ⟨1, _⟩ => show win0_0.index t (1 : Fin 2) * 320 + 1 * l.val = l.val; omega

/-- The first message weight matrix's block is the matrix. -/
theorem w1_block (c : Dev nD) (t : Fin cfg0.N) : Edge.blockAt V c 1 t = V c main_arg4 := by
  funext y
  show V c main_arg4 (((cfg0.win 1).blk t).view.emb y) = _
  congr 1
  funext a; apply Fin.ext
  have h := edge_index t
  match a with
  | ⟨0, _⟩ => show win0_1.index t (0 : Fin 2) * 320 + 1 * (y 0).val = (y 0).val; omega
  | ⟨1, _⟩ => show win0_1.index t (1 : Fin 2) * 128 + 1 * (y 1).val = (y 1).val; omega

/-- The first message bias's block is the bias. -/
theorem b1_block (c : Dev nD) (t : Fin cfg0.N) : Edge.blockAt V c 2 t = V c main_arg5 := by
  funext y
  show V c main_arg5 (((cfg0.win 2).blk t).view.emb y) = _
  congr 1
  funext a; apply Fin.ext
  have h := edge_index t
  match a with
  | ⟨0, _⟩ => show win0_2.index t (0 : Fin 1) * 128 + 1 * (y 0).val = (y 0).val; omega

/-- The second message weight matrix's block is the matrix. -/
theorem w2_block (c : Dev nD) (t : Fin cfg0.N) : Edge.blockAt V c 3 t = V c main_arg6 := by
  funext y
  show V c main_arg6 (((cfg0.win 3).blk t).view.emb y) = _
  congr 1
  funext a; apply Fin.ext
  have h := edge_index t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second message bias's block is the bias. -/
theorem b2_block (c : Dev nD) (t : Fin cfg0.N) : Edge.blockAt V c 4 t = V c main_arg7 := by
  funext y
  show V c main_arg7 (((cfg0.win 4).blk t).view.emb y) = _
  congr 1
  funext a; apply Fin.ext
  have h := edge_index t
  match a with
  | ⟨0, _⟩ => show win0_4.index t (0 : Fin 1) * 128 + 1 * (y 0).val = (y 0).val; omega

/-- The first coordinate weight matrix's block is the matrix. -/
theorem c1w_block (c : Dev nD) (t : Fin cfg0.N) : Edge.blockAt V c 5 t = V c main_arg12 := by
  funext y
  show V c main_arg12 (((cfg0.win 5).blk t).view.emb y) = _
  congr 1
  funext a; apply Fin.ext
  have h := edge_index t
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- The first coordinate bias's block is the bias. -/
theorem c1b_block (c : Dev nD) (t : Fin cfg0.N) : Edge.blockAt V c 6 t = V c main_arg13 := by
  funext y
  show V c main_arg13 (((cfg0.win 6).blk t).view.emb y) = _
  congr 1
  funext a; apply Fin.ext
  have h := edge_index t
  match a with
  | ⟨0, _⟩ => show win0_6.index t (0 : Fin 1) * 64 + 1 * (y 0).val = (y 0).val; omega

/-- The second coordinate weight column's block is the column. -/
theorem c2w_block (c : Dev nD) (t : Fin cfg0.N) : Edge.blockAt V c 7 t = V c main_arg14 := by
  funext y
  show V c main_arg14 (((cfg0.win 7).blk t).view.emb y) = _
  congr 1
  funext a; apply Fin.ext
  have h := edge_index t
  match a with
  | ⟨0, _⟩ => show win0_7.index t (0 : Fin 2) * 64 + 1 * (y 0).val = (y 0).val; omega
  | ⟨1, _⟩ => show win0_7.index t (1 : Fin 2) * 1 + 1 * (y 1).val = (y 1).val; omega

/-- The second coordinate bias's block is the bias. -/
theorem c2b_block (c : Dev nD) (t : Fin cfg0.N) : Edge.blockAt V c 8 t = V c main_arg15 := by
  funext y
  show V c main_arg15 (((cfg0.win 8).blk t).view.emb y) = _
  congr 1
  funext a; apply Fin.ext
  have h := edge_index t
  match a with
  | ⟨0, _⟩ => show win0_8.index t (0 : Fin 1) * 1 + 1 * (y 0).val = (y 0).val; omega

/-! ## The messages -/

/-- What visit t writes back to the message array is block t of the messages of all edges. -/
theorem em_flushed (c : Dev nD) (t : Fin cfg0.N) :
    (Edge.dat (F := Ideal) V c).flushed 9 t = ((cfg0.win 9).blk t).view.read (Elt Ideal)
      (Cert.Spec.emArr (V c main_v18) (V c main_arg4) (V c main_arg5) (V c main_arg6) (V c main_arg7)) := by
  show (cfg0.win 9).cut (grid0.coords t) ((Edge.dat V c).after 9 t) = _
  rw [Edge.after_em]
  unfold Edge.emOut
  rw [View.canon_unit_zero hz2]
  simp only [View.ld_unit_zero (S := S4000x320) hz2, View.ld_unit_zero (S := S320x128) hz2, View.ld_unit_zero (S := S128) hz1,
    View.ld_unit_zero (S := S128x128) hz2]
  rw [w1_block, b1_block, w2_block, b2_block]
  funext y
  have ht : t.val < 160 := t.isLt
  -- the block's index by its two coordinates, and its place in the array: row 4000·t + (y 0), column (y 1)
  have hy : (cfg0.win 9).xinj (grid0.coords t) y = ix2 (n0 := 4000) (n1 := 128) ⟨(y 0).val, (y 0).isLt⟩ ⟨(y 1).val, (y 1).isLt⟩ := by
    funext a; match a with | ⟨0, _⟩ => rfl | ⟨1, _⟩ => rfl
  have hemb : ((cfg0.win 9).blk t).view.emb y
      = ix2 (n0 := 640000) (n1 := 128) ⟨4000 * t.val + (y 0).val, by have : (y 0).val < 4000 := (y 0).isLt; omega⟩ ⟨(y 1).val, (y 1).isLt⟩ := by
    funext a; apply Fin.ext
    have h := edge_index t
    match a with
    | ⟨0, _⟩ => show win0_9.index t (0 : Fin 2) * 4000 + 1 * (y 0).val = 4000 * t.val + (y 0).val; omega
    | ⟨1, _⟩ => show win0_9.index t (1 : Fin 2) * 128 + 1 * (y 1).val = (y 1).val; omega
  show k0_pay2 (F := Ideal) (Edge.blockAt V c 0 t) (V c main_arg4) (V c main_arg5) (V c main_arg6) (V c main_arg7) ((cfg0.win 9).xinj (grid0.coords t) y)
    = Cert.Spec.emArr (V c main_v18) (V c main_arg4) (V c main_arg5) (V c main_arg6) (V c main_arg7) (((cfg0.win 9).blk t).view.emb y)
  rw [hy, hemb, Payload.em_entry]
  exact em_of_row _ _ _ _ _ _ _ _ (fun l => ef_block V c t _ l) _

/-- An index of the message array lies in visit t's block exactly when each coordinate lies in the block's range. -/
theorem em_mem_blk (t : Fin cfg0.N) (i : S640000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v19_0).slice (win0_9.rect t)).set ↔ _
  rw [View.set_slice_whole, Rect.mem_set_unit]
  exact Iff.rfl

/-- Every row of the message array is in some visit's block: row r in block r / 4000. -/
theorem em_cover (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  obtain ⟨t, ht⟩ : ∃ t : Fin cfg0.N, t.val = (i 0).val / 4000 := ⟨⟨(i 0).val / 4000, by show _ < 160; omega⟩, rfl⟩
  refine ⟨t, flush0_9 t, ?_⟩
  rw [em_mem_blk]
  have h := edge_index t
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-- After the edge call the message array holds the messages of all edges. -/
theorem em_array (c : Dev nD) : (Edge.dat (F := Ideal) V c).arrAt 9 cfg0.N
    = Cert.Spec.emArr (V c main_v18) (V c main_arg4) (V c main_arg5) (V c main_arg6) (V c main_arg7) :=
  (Edge.dat V c).arrAt_eq_of_cover 9 _ (fun t _ => em_flushed V c t) em_cover

/-! ## The coordinate weights -/

/-- What visit t writes back to the coordinate-weight array is block t of the coordinate weights of all edges. -/
theorem cw_flushed (c : Dev nD) (t : Fin cfg0.N) :
    (Edge.dat (F := Ideal) V c).flushed 10 t = ((cfg0.win 10).blk t).view.read (Elt Ideal)
      (Cert.Spec.cwArr (Cert.Spec.emArr (V c main_v18) (V c main_arg4) (V c main_arg5) (V c main_arg6) (V c main_arg7))
        (V c main_arg12) (V c main_arg13) (V c main_arg14) (V c main_arg15)) := by
  show (cfg0.win 10).cut (grid0.coords t) ((Edge.dat V c).after 10 t) = _
  rw [Edge.after_cw]
  unfold Edge.cwOut
  rw [View.canon_unit_zero hz2]
  simp only [View.ld_unit_zero (S := S4000x320) hz2, View.ld_unit_zero (S := S320x128) hz2, View.ld_unit_zero (S := S128) hz1,
    View.ld_unit_zero (S := S128x128) hz2, View.ld_unit_zero (S := S128x64) hz2, View.ld_unit_zero (S := S64) hz1,
    View.ld_unit_zero (S := S64x1) hz2, View.ld_unit_zero (S := S1) hz1]
  rw [w1_block, b1_block, w2_block, b2_block, c1w_block, c1b_block, c2w_block, c2b_block]
  funext y
  have ht : t.val < 160 := t.isLt
  have hy : (cfg0.win 10).xinj (grid0.coords t) y = ix2 (n0 := 4000) (n1 := 1) ⟨(y 0).val, (y 0).isLt⟩ ⟨(y 1).val, (y 1).isLt⟩ := by
    funext a; match a with | ⟨0, _⟩ => rfl | ⟨1, _⟩ => rfl
  have hemb : ((cfg0.win 10).blk t).view.emb y
      = ix2 (n0 := 640000) (n1 := 1) ⟨4000 * t.val + (y 0).val, by have : (y 0).val < 4000 := (y 0).isLt; omega⟩ ⟨(y 1).val, (y 1).isLt⟩ := by
    funext a; apply Fin.ext
    have h := edge_index t
    match a with
    | ⟨0, _⟩ => show win0_10.index t (0 : Fin 2) * 4000 + 1 * (y 0).val = 4000 * t.val + (y 0).val; omega
    | ⟨1, _⟩ => show win0_10.index t (1 : Fin 2) * 1 + 1 * (y 1).val = (y 1).val; omega
  show k0_pay1 (F := Ideal) (k0_pay3 (F := Ideal) (Edge.blockAt V c 0 t) (V c main_arg4) (V c main_arg5) (V c main_arg6) (V c main_arg7)
      (V c main_arg12) (V c main_arg13) (V c main_arg14)) (V c main_arg15) ((cfg0.win 10).xinj (grid0.coords t) y)
    = Cert.Spec.cwArr (Cert.Spec.emArr (V c main_v18) (V c main_arg4) (V c main_arg5) (V c main_arg6) (V c main_arg7))
        (V c main_arg12) (V c main_arg13) (V c main_arg14) (V c main_arg15) (((cfg0.win 10).blk t).view.emb y)
  rw [hy, hemb, Payload.cw_entry]
  exact cw_of_row _ _ _ _ _ _ _ _ _ _ _ _ (fun l => ef_block V c t _ l) _

/-- An index of the coordinate-weight array lies in visit t's block exactly when each coordinate lies in the block's
    range. -/
theorem cw_mem_blk (t : Fin cfg0.N) (i : S640000x1.Idx) :
    i ∈ ((cfg0.win 10).blk t).view.set ↔ ∀ a : Fin 2, win0_10.index t a * S4000x1.size a ≤ (i a).val
      ∧ (i a).val < win0_10.index t a * S4000x1.size a + S4000x1.size a := by
  show i ∈ ((View.whole main_v19_1).slice (win0_10.rect t)).set ↔ _
  rw [View.set_slice_whole, Rect.mem_set_unit]
  exact Iff.rfl

/-- Every row of the coordinate-weight array is in some visit's block. -/
theorem cw_cover (i : S640000x1.Idx) :
    ∃ t : Fin cfg0.N, (cfg0.win 10).flush t = true ∧ i ∈ ((cfg0.win 10).blk t).view.set := by
  have hi0 : (i 0).val < 640000 := (i 0).isLt
  have hi1 : (i 1).val < 1 := (i 1).isLt
  obtain ⟨t, ht⟩ : ∃ t : Fin cfg0.N, t.val = (i 0).val / 4000 := ⟨⟨(i 0).val / 4000, by show _ < 160; omega⟩, rfl⟩
  refine ⟨t, flush0_10 t, ?_⟩
  rw [cw_mem_blk]
  have h := edge_index t
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 1 ≤ (i 1).val ∧ (i 1).val < win0_10.index t (1 : Fin 2) * 1 + 1; omega

/-- After the edge call the coordinate-weight array holds the coordinate weights of all edges. -/
theorem cw_array (c : Dev nD) : (Edge.dat (F := Ideal) V c).arrAt 10 cfg0.N
    = Cert.Spec.cwArr (Cert.Spec.emArr (V c main_v18) (V c main_arg4) (V c main_arg5) (V c main_arg6) (V c main_arg7))
        (V c main_arg12) (V c main_arg13) (V c main_arg14) (V c main_arg15) :=
  (Edge.dat V c).arrAt_eq_of_cover 10 _ (fun t _ => cw_flushed V c t) cw_cover

/-! ## The node call's blocks -/

/-- Where the node call's blocks sit: at visit t the input block, the feature block and the output block are block t
    of their rows, and each weight or bias array is its one block. -/
theorem node_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row p of the node-input block at visit t is row 4000·t + p of the node-input matrix. -/
theorem ni_block (c : Dev nD) (t : Fin cfg1.N) (p : Fin 4000) (l : Fin 256) :
    Node.blockAt V c 0 t (ix2 p l)
      = V c main_v23 (ix2 (n0 := 20000) ⟨4000 * t.val + p.val, by have : t.val < 5 := t.isLt; omega⟩ l) := by
  show V c main_v23 (((cfg1.win 0).blk t).view.emb (ix2 p l)) = _
  congr 1
  funext a; apply Fin.ext
  have h := node_index t
  match a with
  | ⟨0, _⟩ => show win1_0.index t (0 : Fin 2) * 4000 + 1 * p.val = 4000 * t.val + p.val; omega
  | ⟨1, _⟩ => show win1_0.index t (1 : Fin 2) * 256 + 1 * l.val = l.val; omega

/-- Row p of the node-feature block at visit t is row 4000·t + p of the node-feature matrix. -/
theorem nf_block (c : Dev nD) (t : Fin cfg1.N) (p : Fin 4000) (j : Fin 128) :
    Node.blockAt V c 1 t (ix2 p j)
      = V c main_arg0 (ix2 (n0 := 20000) ⟨4000 * t.val + p.val, by have : t.val < 5 := t.isLt; omega⟩ j) := by
  show V c main_arg0 (((cfg1.win 1).blk t).view.emb (ix2 p j)) = _
  congr 1
  funext a; apply Fin.ext
  have h := node_index t
  match a with
  | ⟨0, _⟩ => show win1_1.index t (0 : Fin 2) * 4000 + 1 * p.val = 4000 * t.val + p.val; omega
  | ⟨1, _⟩ => show win1_1.index t (1 : Fin 2) * 128 + 1 * j.val = j.val; omega

/-- The first node weight matrix's block is the matrix. -/
theorem n1w_block (c : Dev nD) (t : Fin cfg1.N) : Node.blockAt V c 2 t = V c main_arg8 := by
  funext y
  show V c main_arg8 (((cfg1.win 2).blk t).view.emb y) = _
  congr 1
  funext a; apply Fin.ext
  have h := node_index t
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The first node bias's block is the bias. -/
theorem n1b_block (c : Dev nD) (t : Fin cfg1.N) : Node.blockAt V c 3 t = V c main_arg9 := by
  funext y
  show V c main_arg9 (((cfg1.win 3).blk t).view.emb y) = _
  congr 1
  funext a; apply Fin.ext
  have h := node_index t
  match a with
  | ⟨0, _⟩ => show win1_3.index t (0 : Fin 1) * 128 + 1 * (y 0).val = (y 0).val; omega

/-- The second node weight matrix's block is the matrix. -/
theorem n2w_block (c : Dev nD) (t : Fin cfg1.N) : Node.blockAt V c 4 t = V c main_arg10 := by
  funext y
  show V c main_arg10 (((cfg1.win 4).blk t).view.emb y) = _
  congr 1
  funext a; apply Fin.ext
  have h := node_index t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second node bias's block is the bias. -/
theorem n2b_block (c : Dev nD) (t : Fin cfg1.N) : Node.blockAt V c 5 t = V c main_arg11 := by
  funext y
  show V c main_arg11 (((cfg1.win 5).blk t).view.emb y) = _
  congr 1
  funext a; apply Fin.ext
  have h := node_index t
  match a with
  | ⟨0, _⟩ => show win1_5.index t (0 : Fin 1) * 128 + 1 * (y 0).val = (y 0).val; omega

/-! ## The updated node features -/

/-- What visit t writes back to the output array is block t of the updated features of all nodes. -/
theorem node_flushed (c : Dev nD) (t : Fin cfg1.N) :
    (Node.dat (F := Ideal) V c).flushed 6 t = ((cfg1.win 6).blk t).view.read (Elt Ideal)
      (Cert.Spec.nodeArr (V c main_v23) (V c main_arg0) (V c main_arg8) (V c main_arg9) (V c main_arg10) (V c main_arg11)) := by
  show (cfg1.win 6).cut (grid1.coords t) ((Node.dat V c).after 6 t) = _
  rw [Node.after_out]
  unfold Node.nodeOut
  rw [View.canon_unit_zero hz2]
  simp only [View.ld_unit_zero (S := S4000x256) hz2, View.ld_unit_zero (S := S4000x128) hz2, View.ld_unit_zero (S := S256x128) hz2,
    View.ld_unit_zero (S := S128) hz1, View.ld_unit_zero (S := S128x128) hz2]
  rw [n1w_block, n1b_block, n2w_block, n2b_block]
  funext y
  have ht : t.val < 5 := t.isLt
  have hy : (cfg1.win 6).xinj (grid1.coords t) y = ix2 (n0 := 4000) (n1 := 128) ⟨(y 0).val, (y 0).isLt⟩ ⟨(y 1).val, (y 1).isLt⟩ := by
    funext a; match a with | ⟨0, _⟩ => rfl | ⟨1, _⟩ => rfl
  have hemb : ((cfg1.win 6).blk t).view.emb y
      = ix2 (n0 := 20000) (n1 := 128) ⟨4000 * t.val + (y 0).val, by have : (y 0).val < 4000 := (y 0).isLt; omega⟩ ⟨(y 1).val, (y 1).isLt⟩ := by
    funext a; apply Fin.ext
    have h := node_index t
    match a with
    | ⟨0, _⟩ => show win1_6.index t (0 : Fin 2) * 4000 + 1 * (y 0).val = 4000 * t.val + (y 0).val; omega
    | ⟨1, _⟩ => show win1_6.index t (1 : Fin 2) * 128 + 1 * (y 1).val = (y 1).val; omega
  show k1_pay1 (F := Ideal) (Node.blockAt V c 0 t) (V c main_arg8) (V c main_arg9) (V c main_arg10) (V c main_arg11) (Node.blockAt V c 1 t)
      ((cfg1.win 6).xinj (grid1.coords t) y)
    = Cert.Spec.nodeArr (V c main_v23) (V c main_arg0) (V c main_arg8) (V c main_arg9) (V c main_arg10) (V c main_arg11)
        (((cfg1.win 6).blk t).view.emb y)
  rw [hy, hemb, Payload.node_entry]
  exact node_of_row _ _ _ _ _ _ _ _ _ _ (fun l => ni_block V c t _ l) (fun j => nf_block V c t _ j) _

/-- An index of the output array lies in visit t's block exactly when each coordinate lies in the block's range. -/
theorem node_mem_blk (t : Fin cfg1.N) (i : S20000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v24).slice (win1_6.rect t)).set ↔ _
  rw [View.set_slice_whole, Rect.mem_set_unit]
  exact Iff.rfl

/-- Every row of the output array is in some visit's block. -/
theorem node_cover (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  obtain ⟨t, ht⟩ : ∃ t : Fin cfg1.N, t.val = (i 0).val / 4000 := ⟨⟨(i 0).val / 4000, by show _ < 5; omega⟩, rfl⟩
  refine ⟨t, flush1_6 t, ?_⟩
  rw [node_mem_blk]
  have h := node_index t
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- After the node call the output array holds the updated features of all nodes. -/
theorem node_array (c : Dev nD) : (Node.dat (F := Ideal) V c).arrAt 6 cfg1.N
    = Cert.Spec.nodeArr (V c main_v23) (V c main_arg0) (V c main_arg8) (V c main_arg9) (V c main_arg10) (V c main_arg11) :=
  (Node.dat V c).arrAt_eq_of_cover 6 _ (fun t _ => node_flushed V c t) node_cover

end Cert.KernelIdeal.Arrays

end
-- ==== Proof.RefRows.lean ====
/-
  The reference's three stages, read entry by entry on the extended reals.

  Each stage of the reference is a chain of whole-matrix operations: a matrix product against a weight matrix, a bias
  vector laid out over all rows and added, and silu spelt as x · (1 / (1 + e^(−x))).  Read at one entry (r, j), the
  product is Σ_k A(r, k) · W(k, j), the laid-out bias is b_j, and the spelt-out silu is silu itself; so every stage is
  the row-by-row function of the specification applied to row r of the stage's input matrix.
-/
import proofs.«110601_j7275674599802_1_alg».proof.Proof.Gen.ReferenceIdeal.Read
import proofs.«110601_j7275674599802_1_alg».proof.Proof.Spec
import Idealize.ShloMosaic.Lib.ValueIdx

noncomputable section

namespace Cert.ReferenceIdeal.Rows

open Cert.ReferenceIdeal Cert.ReferenceIdeal.Read Idealize.ShloMosaic Idealize.ShloMosaic.ValueIdx

/-! ## The edge messages -/

/-- The first layer at entry (r, k): the product against W1 is Σ_l x(r, l) · W1(l, k), the laid-out bias is b1 at k,
    and the spelt-out silu of their sum is silu. -/
theorem v23_ix2 (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (r : Fin 640000) (k : Fin 128) :
    val_main_v23 (F := Ideal) x0 x1 x2 x4 x5 (ix2 r k)
      = Cert.Spec.silu (Cert.Spec.affine (fun l => val_main_v18 (F := Ideal) x0 x1 x2 (ix2 r l)) x4 x5 k) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, Cert.Spec.host_silu, val_main_v22_apply, val_main_v19_apply, val_main_v21_apply,
    val_main_v20_apply]
  generalize val_main_v18 (F := Ideal) x0 x1 x2 = ef
  have e1 : ∀ l : Fin 320, lidx_main_v19 (ix2 r k) l = ix2 r l := fun l => funext fun a => by
    match a with | ⟨0, _⟩ => rfl | ⟨1, _⟩ => rfl
  have e2 : ∀ l : Fin 320, ridx_main_v19 (ix2 r k) l = ix2 l k := fun l => funext fun a => by
    match a with | ⟨0, _⟩ => rfl | ⟨1, _⟩ => rfl
  have e3 : idx_main_v20 (idx_main_v21 (ix2 r k)) = ix1 k := funext fun a => by
    match a with | ⟨0, _⟩ => rfl
  simp only [e1, e2, e3]
  rfl

/-- The second layer on top of the first: the message at entry (r, j) is the row function of row r. -/
theorem v28_ix2 (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (r : Fin 640000) (j : Fin 128) :
    val_main_v28 (F := Ideal) x0 x1 x2 x4 x5 x6 x7 (ix2 r j)
      = Cert.Spec.emRow (fun l => val_main_v18 (F := Ideal) x0 x1 x2 (ix2 r l)) x4 x5 x6 x7 j := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply, Cert.Spec.host_silu, val_main_v27_apply, val_main_v24_apply, val_main_v26_apply,
    val_main_v25_apply]
  have e1 : ∀ l : Fin 128, lidx_main_v24 (ix2 r j) l = ix2 r l := fun l => funext fun a => by
    match a with | ⟨0, _⟩ => rfl | ⟨1, _⟩ => rfl
  have e2 : ∀ l : Fin 128, ridx_main_v24 (ix2 r j) l = ix2 l j := fun l => funext fun a => by
    match a with | ⟨0, _⟩ => rfl | ⟨1, _⟩ => rfl
  have e3 : idx_main_v25 (idx_main_v26 (ix2 r j)) = ix1 j := funext fun a => by
    match a with | ⟨0, _⟩ => rfl
  simp only [e1, e2, e3, v23_ix2]
  rfl

/-- Every entry is some (r, j), so the message matrix is the row function applied to each row of the edge features. -/
theorem ref_em (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v28 (F := Ideal) x0 x1 x2 x4 x5 x6 x7 = Cert.Spec.emArr (val_main_v18 (F := Ideal) x0 x1 x2) x4 x5 x6 x7 := by
  funext i
  obtain ⟨r, j, rfl⟩ : ∃ (r : Fin 640000) (j : Fin 128), i = ix2 r j := ⟨_, _, eq_ix2 i⟩
  rw [v28_ix2, Cert.Spec.emArr_ix2]

/-! ## The coordinate weights -/

/-- The hidden layer of the coordinate weight at entry (r, k), from row r of the messages. -/
theorem v47_ix2 (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x12 : (⟨S128x64, .f32⟩ : BufTy).Contents (Elt Ideal))
    (x13 : (⟨S64, .f32⟩ : BufTy).Contents (Elt Ideal)) (r : Fin 640000) (k : Fin 64) :
    val_main_v47 (F := Ideal) x0 x1 x2 x4 x5 x6 x7 x12 x13 (ix2 r k)
      = Cert.Spec.silu (Cert.Spec.affine (fun l => val_main_v28 (F := Ideal) x0 x1 x2 x4 x5 x6 x7 (ix2 r l)) x12 x13 k) := by
  rw [val_main_v47_apply, val_main_call3_v5_apply, val_main_call3_v4_apply, val_main_call3_cst_0_apply,
    val_main_call3_v3_apply, val_main_call3_v2_apply, val_main_call3_cst_apply, val_main_call3_v1_apply,
    val_main_call3_v0_apply, Cert.Spec.host_silu, val_main_v46_apply, val_main_v43_apply, val_main_v45_apply,
    val_main_v44_apply]
  generalize val_main_v28 (F := Ideal) x0 x1 x2 x4 x5 x6 x7 = em
  have e1 : ∀ l : Fin 128, lidx_main_v43 (ix2 r k) l = ix2 r l := fun l => funext fun a => by
    match a with | ⟨0, _⟩ => rfl | ⟨1, _⟩ => rfl
  have e2 : ∀ l : Fin 128, ridx_main_v43 (ix2 r k) l = ix2 l k := fun l => funext fun a => by
    match a with | ⟨0, _⟩ => rfl | ⟨1, _⟩ => rfl
  have e3 : idx_main_v44 (idx_main_v45 (ix2 r k)) = ix1 k := funext fun a => by
    match a with | ⟨0, _⟩ => rfl
  simp only [e1, e2, e3]
  rfl

/-- The output layer has one column, so the weight of edge r sits at entry (r, 0). -/
theorem v51_ix2 (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x12 : (⟨S128x64, .f32⟩ : BufTy).Contents (Elt Ideal))
    (x13 : (⟨S64, .f32⟩ : BufTy).Contents (Elt Ideal)) (x14 : (⟨S64x1, .f32⟩ : BufTy).Contents (Elt Ideal))
    (x15 : (⟨S1, .f32⟩ : BufTy).Contents (Elt Ideal)) (r : Fin 640000) (u : Fin 1) :
    val_main_v51 (F := Ideal) x0 x1 x2 x4 x5 x6 x7 x12 x13 x14 x15 (ix2 r u)
      = Cert.Spec.cwRow (fun l => val_main_v28 (F := Ideal) x0 x1 x2 x4 x5 x6 x7 (ix2 r l)) x12 x13 x14 x15 := by
  obtain rfl : u = 0 := Subsingleton.elim _ _
  rw [val_main_v51_apply, val_main_v48_apply, val_main_v50_apply, val_main_v49_apply]
  have e1 : ∀ l : Fin 64, lidx_main_v48 (ix2 r (0 : Fin 1)) l = ix2 r l := fun l => funext fun a => by
    match a with | ⟨0, _⟩ => rfl | ⟨1, _⟩ => rfl
  have e2 : ∀ l : Fin 64, ridx_main_v48 (ix2 r (0 : Fin 1)) l = ix2 l (0 : Fin 1) := fun l => funext fun a => by
    match a with | ⟨0, _⟩ => rfl | ⟨1, _⟩ => rfl
  have e3 : idx_main_v49 (idx_main_v50 (ix2 r (0 : Fin 1))) = ix1 (0 : Fin 1) := funext fun a => by
    match a with | ⟨0, _⟩ => rfl
  simp only [e1, e2, e3, v47_ix2]
  rfl

/-- The coordinate weights as the row function applied to each row of the messages. -/
theorem ref_cw (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x12 : (⟨S128x64, .f32⟩ : BufTy).Contents (Elt Ideal))
    (x13 : (⟨S64, .f32⟩ : BufTy).Contents (Elt Ideal)) (x14 : (⟨S64x1, .f32⟩ : BufTy).Contents (Elt Ideal))
    (x15 : (⟨S1, .f32⟩ : BufTy).Contents (Elt Ideal)) :
    val_main_v51 (F := Ideal) x0 x1 x2 x4 x5 x6 x7 x12 x13 x14 x15
      = Cert.Spec.cwArr (val_main_v28 (F := Ideal) x0 x1 x2 x4 x5 x6 x7) x12 x13 x14 x15 := by
  funext i
  obtain ⟨r, u, rfl⟩ : ∃ (r : Fin 640000) (u : Fin 1), i = ix2 r u := ⟨_, _, eq_ix2 i⟩
  rw [v51_ix2, Cert.Spec.cwArr_ix2]

/-! ## The node update -/

/-- The hidden layer of the node update at entry (r, k), from row r of the node inputs. -/
theorem v37_ix2 (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (r : Fin 20000) (k : Fin 128) :
    val_main_v37 (F := Ideal) x0 x1 x2 x4 x5 x6 x7 x8 x9 (ix2 r k)
      = Cert.Spec.silu (Cert.Spec.affine (fun l => val_main_v32 (F := Ideal) x0 x1 x2 x4 x5 x6 x7 (ix2 r l)) x8 x9 k) := by
  rw [val_main_v37_apply, val_main_call2_v5_apply, val_main_call2_v4_apply, val_main_call2_cst_0_apply,
    val_main_call2_v3_apply, val_main_call2_v2_apply, val_main_call2_cst_apply, val_main_call2_v1_apply,
    val_main_call2_v0_apply, Cert.Spec.host_silu, val_main_v36_apply, val_main_v33_apply, val_main_v35_apply,
    val_main_v34_apply]
  generalize val_main_v32 (F := Ideal) x0 x1 x2 x4 x5 x6 x7 = ni
  have e1 : ∀ l : Fin 256, lidx_main_v33 (ix2 r k) l = ix2 r l := fun l => funext fun a => by
    match a with | ⟨0, _⟩ => rfl | ⟨1, _⟩ => rfl
  have e2 : ∀ l : Fin 256, ridx_main_v33 (ix2 r k) l = ix2 l k := fun l => funext fun a => by
    match a with | ⟨0, _⟩ => rfl | ⟨1, _⟩ => rfl
  have e3 : idx_main_v34 (idx_main_v35 (ix2 r k)) = ix1 k := funext fun a => by
    match a with | ⟨0, _⟩ => rfl
  simp only [e1, e2, e3]
  rfl

/-- The output layer added to the node's own feature: the updated feature at entry (r, j). -/
theorem v42_ix2 (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (r : Fin 20000) (j : Fin 128) :
    val_main_v42 (F := Ideal) x0 x1 x2 x4 x5 x6 x7 x8 x9 x10 x11 (ix2 r j)
      = Cert.Spec.nodeRow (fun l => val_main_v32 (F := Ideal) x0 x1 x2 x4 x5 x6 x7 (ix2 r l)) (x0 (ix2 r j)) x8 x9 x10 x11 j := by
  rw [val_main_v42_apply, val_main_v41_apply, val_main_v38_apply, val_main_v40_apply, val_main_v39_apply]
  have e1 : ∀ l : Fin 128, lidx_main_v38 (ix2 r j) l = ix2 r l := fun l => funext fun a => by
    match a with | ⟨0, _⟩ => rfl | ⟨1, _⟩ => rfl
  have e2 : ∀ l : Fin 128, ridx_main_v38 (ix2 r j) l = ix2 l j := fun l => funext fun a => by
    match a with | ⟨0, _⟩ => rfl | ⟨1, _⟩ => rfl
  have e3 : idx_main_v39 (idx_main_v40 (ix2 r j)) = ix1 j := funext fun a => by
    match a with | ⟨0, _⟩ => rfl
  simp only [e1, e2, e3, v37_ix2]
  rfl

/-- The first result as the row function applied to each row of the node inputs beside the node's own feature. -/
theorem ref_node (x0 : (⟨S20000x128, .f32⟩ : BufTy).Contents (Elt Ideal)) (x1 : (⟨S2x640000, .i32⟩ : BufTy).Contents (Elt Ideal))
    (x2 : (⟨S640000x64, .f32⟩ : BufTy).Contents (Elt Ideal)) (x4 : (⟨S320x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) :
    val_main_v42 (F := Ideal) x0 x1 x2 x4 x5 x6 x7 x8 x9 x10 x11
      = Cert.Spec.nodeArr (val_main_v32 (F := Ideal) x0 x1 x2 x4 x5 x6 x7) x0 x8 x9 x10 x11 := by
  funext i
  obtain ⟨r, j, rfl⟩ : ∃ (r : Fin 20000) (j : Fin 128), i = ix2 r j := ⟨_, _, eq_ix2 i⟩
  rw [v42_ix2, Cert.Spec.nodeArr_ix2]

end Cert.ReferenceIdeal.Rows

end
-- ==== Proof.KIResults.lean ====
/-
  The idealized kernel's two results as the reference's stages of the arguments.  The fold of the buffers' contents
  is read buffer by buffer: after the first stretch of host operations the edge feature matrix and the two index
  vectors are the reference's stages of the same names; the edge call leaves the messages and the coordinate weights,
  which are the reference's by the row-by-row description both sides meet; the second stretch sums the messages per
  destination node beside the node features; the node call leaves the updated features, the first result; the
  closing stretches form the unit coordinate differences, scale them by the weights, sum them per destination node and
  add the coordinates, the second result.  Every host operation is the same operation on both sides, so once its
  operands are the reference's stages its result is the next stage by unfolding.
-/
import proofs.«110601_j7275674599802_1_alg».proof.Proof.KIRun
import proofs.«110601_j7275674599802_1_alg».proof.Proof.KIArrays
import proofs.«110601_j7275674599802_1_alg».proof.Proof.RefRows
import Idealize.ShloMosaic.Lib.StableHlo.Run

set_option maxRecDepth 16384

noncomputable section

namespace Cert.KernelIdeal.Results

open Cert.KernelIdeal Cert.KernelIdeal.Gen Cert.KernelIdeal.Run
open Cert.ReferenceIdeal.Read
open Idealize.ShloMosaic Idealize.ShloMosaic.TcCoe Idealize.SL.Sem Idealize.ShloMosaic.StableHlo

variable (m : (ℓ : Loc nD τ sig) → Buf (Elt Ideal) ℓ) (c : Dev nD)

/-- An argument's (or any buffer's) launch contents on core c. -/
abbrev at0 (b : Ref sig .tc) : Buf (Elt Ideal) ((c : Thread nD τ).loc b) := m ((c : Thread nD τ).loc b)

/-! ## The first stretch: the two index vectors and the edge feature matrix -/

theorem H1_v1 : H1 m c main_v1 = val_main_v1 (F := Ideal) (at0 m c main_arg1) := by
  show StableHlo.after hostOps0 (H0 m c) (Proc.devRef .tc main_v1) = _
  after_results
  rfl

theorem H1_v3 : H1 m c main_v3 = val_main_v3 (F := Ideal) (at0 m c main_arg1) := by
  show StableHlo.after hostOps0 (H0 m c) (Proc.devRef .tc main_v3) = _
  after_results
  rfl

theorem H1_v18 : H1 m c main_v18 = val_main_v18 (F := Ideal) (at0 m c main_arg0) (at0 m c main_arg1) (at0 m c main_arg2) := by
  show StableHlo.after hostOps0 (H0 m c) (Proc.devRef .tc main_v18) = _
  after_results
  rfl

/-- An argument is still as launched when the edge call is entered. -/
theorem H1_arg (b : Ref sig .tc) (h : b ∉ hostOps0_W) : H1 m c b = at0 m c b := keep0 _ b h

/-! ## The edge call's two arrays -/

theorem H2_em : H2 m c main_v19_0 = val_main_v28 (F := Ideal) (at0 m c main_arg0) (at0 m c main_arg1) (at0 m c main_arg2)
    (at0 m c main_arg4) (at0 m c main_arg5) (at0 m c main_arg6) (at0 m c main_arg7) := by
  refine (H2_arr m c 9).trans ((Cert.KernelIdeal.Arrays.em_array (Run.V1 m) c).trans ?_)
  rw [show Run.V1 m c main_v18 = H1 m c main_v18 from rfl, H1_v18,
    show Run.V1 m c main_arg4 = at0 m c main_arg4 from H1_arg m c main_arg4 (by decide),
    show Run.V1 m c main_arg5 = at0 m c main_arg5 from H1_arg m c main_arg5 (by decide),
    show Run.V1 m c main_arg6 = at0 m c main_arg6 from H1_arg m c main_arg6 (by decide),
    show Run.V1 m c main_arg7 = at0 m c main_arg7 from H1_arg m c main_arg7 (by decide)]
  exact (Cert.ReferenceIdeal.Rows.ref_em _ _ _ _ _ _ _).symm

theorem H2_cw : H2 m c main_v19_1 = val_main_v51 (F := Ideal) (at0 m c main_arg0) (at0 m c main_arg1) (at0 m c main_arg2)
    (at0 m c main_arg4) (at0 m c main_arg5) (at0 m c main_arg6) (at0 m c main_arg7)
    (at0 m c main_arg12) (at0 m c main_arg13) (at0 m c main_arg14) (at0 m c main_arg15) := by
  refine (H2_arr m c 10).trans ((Cert.KernelIdeal.Arrays.cw_array (Run.V1 m) c).trans ?_)
  rw [show Run.V1 m c main_v18 = H1 m c main_v18 from rfl, H1_v18,
    show Run.V1 m c main_arg4 = at0 m c main_arg4 from H1_arg m c main_arg4 (by decide),
    show Run.V1 m c main_arg5 = at0 m c main_arg5 from H1_arg m c main_arg5 (by decide),
    show Run.V1 m c main_arg6 = at0 m c main_arg6 from H1_arg m c main_arg6 (by decide),
    show Run.V1 m c main_arg7 = at0 m c main_arg7 from H1_arg m c main_arg7 (by decide),
    show Run.V1 m c main_arg12 = at0 m c main_arg12 from H1_arg m c main_arg12 (by decide),
    show Run.V1 m c main_arg13 = at0 m c main_arg13 from H1_arg m c main_arg13 (by decide),
    show Run.V1 m c main_arg14 = at0 m c main_arg14 from H1_arg m c main_arg14 (by decide),
    show Run.V1 m c main_arg15 = at0 m c main_arg15 from H1_arg m c main_arg15 (by decide),
    ← Cert.ReferenceIdeal.Rows.ref_em]
  exact (Cert.ReferenceIdeal.Rows.ref_cw _ _ _ _ _ _ _ _ _ _ _).symm

/-- A buffer the edge call does not write, and no stretch before it, is as launched at its exit. -/
theorem H2_arg (b : Ref sig .tc) (h : b ∉ hostOps0_W) (hne : ∀ w, Pipeline.arrRef spec0 w ≠ b) : H2 m c b = at0 m c b :=
  (H2_of_ne m c b hne).trans (H1_arg m c b h)
theorem H2_v1 : H2 m c main_v1 = val_main_v1 (F := Ideal) (at0 m c main_arg1) := (H2_of_ne m c main_v1 (by decide)).trans (H1_v1 m c)
theorem H2_v3 : H2 m c main_v3 = val_main_v3 (F := Ideal) (at0 m c main_arg1) := (H2_of_ne m c main_v3 (by decide)).trans (H1_v3 m c)

/-! ## The second stretch: the node input matrix -/

theorem H3_v23 : H3 m c main_v23 = val_main_v32 (F := Ideal) (at0 m c main_arg0) (at0 m c main_arg1) (at0 m c main_arg2)
    (at0 m c main_arg4) (at0 m c main_arg5) (at0 m c main_arg6) (at0 m c main_arg7) := by
  show StableHlo.after hostOps1 (H2 m c) (Proc.devRef .tc main_v23) = _
  after_results
  rw [H2_em m c, H2_v3 m c, H2_arg m c main_arg0 (by decide) (by decide)]
  rfl

theorem H3_arg (b : Ref sig .tc) (h1 : b ∉ hostOps1_W) (h : b ∉ hostOps0_W) (hne : ∀ w, Pipeline.arrRef spec0 w ≠ b) : H3 m c b = at0 m c b :=
  (keep1 _ b h1).trans (H2_arg m c b h hne)

/-! ## The first result: the updated node features -/

theorem H7_nodes : H7 m c main_v24 = val_main_v42 (F := Ideal) (at0 m c main_arg0) (at0 m c main_arg1) (at0 m c main_arg2)
    (at0 m c main_arg4) (at0 m c main_arg5) (at0 m c main_arg6) (at0 m c main_arg7)
    (at0 m c main_arg8) (at0 m c main_arg9) (at0 m c main_arg10) (at0 m c main_arg11) := by
  refine (keep22 _ main_v24 (by decide)).trans <| (keep21 _ main_v24 (by decide)).trans <| (keep2 _ main_v24 (by decide)).trans <|
    (H4_arr m c 6).trans ((Cert.KernelIdeal.Arrays.node_array (Run.V3 m) c).trans ?_)
  rw [show Run.V3 m c main_v23 = H3 m c main_v23 from rfl, H3_v23,
    show Run.V3 m c main_arg0 = at0 m c main_arg0 from H3_arg m c main_arg0 (by decide) (by decide) (by decide),
    show Run.V3 m c main_arg8 = at0 m c main_arg8 from H3_arg m c main_arg8 (by decide) (by decide) (by decide),
    show Run.V3 m c main_arg9 = at0 m c main_arg9 from H3_arg m c main_arg9 (by decide) (by decide) (by decide),
    show Run.V3 m c main_arg10 = at0 m c main_arg10 from H3_arg m c main_arg10 (by decide) (by decide) (by decide),
    show Run.V3 m c main_arg11 = at0 m c main_arg11 from H3_arg m c main_arg11 (by decide) (by decide) (by decide)]
  exact (Cert.ReferenceIdeal.Rows.ref_node _ _ _ _ _ _ _ _ _ _ _).symm

/-! ## The closing stretches: the coordinate update -/

/-- A buffer neither call writes, and no stretch up to the node call's exit, is as launched there. -/
theorem H4_arg (b : Ref sig .tc) (h1 : b ∉ hostOps1_W) (h : b ∉ hostOps0_W) (hne : ∀ w, Pipeline.arrRef spec0 w ≠ b)
    (hne1 : ∀ w, Pipeline.arrRef spec1 w ≠ b) : H4 m c b = at0 m c b :=
  (H4_of_ne m c b hne1).trans (H3_arg m c b h1 h hne)
theorem H4_v1 : H4 m c main_v1 = val_main_v1 (F := Ideal) (at0 m c main_arg1) :=
  (H4_of_ne m c main_v1 (by decide)).trans ((keep1 _ main_v1 (by decide)).trans (H2_v1 m c))
theorem H4_v3 : H4 m c main_v3 = val_main_v3 (F := Ideal) (at0 m c main_arg1) :=
  (H4_of_ne m c main_v3 (by decide)).trans ((keep1 _ main_v3 (by decide)).trans (H2_v3 m c))
theorem H4_cw : H4 m c main_v19_1 = val_main_v51 (F := Ideal) (at0 m c main_arg0) (at0 m c main_arg1) (at0 m c main_arg2)
    (at0 m c main_arg4) (at0 m c main_arg5) (at0 m c main_arg6) (at0 m c main_arg7)
    (at0 m c main_arg12) (at0 m c main_arg13) (at0 m c main_arg14) (at0 m c main_arg15) :=
  (H4_of_ne m c main_v19_1 (by decide)).trans ((keep1 _ main_v19_1 (by decide)).trans (H2_cw m c))

set_option maxHeartbeats 4000000 in
/-- The difference of the gathered coordinates. -/
theorem H5_v39 : H5 m c main_v39 = val_main_v66 (F := Ideal) (at0 m c main_arg1) (at0 m c main_arg3) := by
  show StableHlo.after hostOps2 (H4 m c) (Proc.devRef .tc main_v39) = _
  have e1 := H4_v1 m c
  have e3 := H4_v3 m c
  have ea := H4_arg m c main_arg3 (by decide) (by decide) (by decide) (by decide)
  generalize H4 m c = Wv at e1 e3 ea ⊢
  after_results_simp
  rw [e1, e3, ea]
  rfl

set_option maxHeartbeats 4000000 in
/-- Its row norms: the square root of each row's sum of squares. The operations of the called norm function carry
    each value through its buffer's type and back, which is the identity. -/
theorem H6_v40 : H6 m c main_v40 = val_main_v67 (F := Ideal) (at0 m c main_arg1) (at0 m c main_arg3) := by
  show StableHlo.after hostOps2_1 (H5 m c) (Proc.devRef .tc main_v40) = _
  have e39 := H5_v39 m c
  generalize H5 m c = Wv at e39 ⊢
  after_results_simp
  rw [e39]
  simp only [TRef.toBuf, TRef.ofBuf, cast_eq]
  unfold val_main_v67 val_main_call4_v2 val_main_call4_v1 val_main_call4_v0 val_main_call4_cst
  rfl

set_option maxHeartbeats 4000000 in
theorem H7_coords : H7 m c main_v50 = val_main_v77 (F := Ideal) (at0 m c main_arg0) (at0 m c main_arg1) (at0 m c main_arg2)
    (at0 m c main_arg3) (at0 m c main_arg4) (at0 m c main_arg5) (at0 m c main_arg6) (at0 m c main_arg7)
    (at0 m c main_arg12) (at0 m c main_arg13) (at0 m c main_arg14) (at0 m c main_arg15) := by
  show StableHlo.after hostOps2_2 (H6 m c) (Proc.devRef .tc main_v50) = _
  have e40 := H6_v40 m c
  have e39 : H6 m c main_v39 = val_main_v66 (F := Ideal) (at0 m c main_arg1) (at0 m c main_arg3) :=
    (keep21 _ main_v39 (by decide)).trans (H5_v39 m c)
  have ecw := (keep21 (H5 m c) main_v19_1 (by decide)).trans ((keep2 _ main_v19_1 (by decide)).trans (H4_cw m c))
  have e3 := (keep21 (H5 m c) main_v3 (by decide)).trans ((keep2 _ main_v3 (by decide)).trans (H4_v3 m c))
  have ea := (keep21 (H5 m c) main_arg3 (by decide)).trans ((keep2 _ main_arg3 (by decide)).trans (H4_arg m c main_arg3 (by decide) (by decide) (by decide) (by decide)))
  change H6 m c main_v19_1 = _ at ecw
  change H6 m c main_v3 = _ at e3
  change H6 m c main_arg3 = _ at ea
  generalize H6 m c = Wv at e40 e39 ecw e3 ea ⊢
  after_results_simp
  rw [e40, e39, ecw, e3, ea]
  rfl

end Cert.KernelIdeal.Results

end
-- ==== Proof.lean ====
/-
  The certificate of a graph layer computed two ways.

  Along every edge a feature row x — the features of the edge's two end nodes beside the edge's own attributes —
  gives a message silu(silu(x·W1 + b1)·W2 + b2) and, from that message e, a coordinate weight silu(e·C1 + c1)·C2 + c2;
  the messages are summed per destination node, and along every node the input row y — its features beside its
  summed messages — gives the updated features f + (silu(y·N1 + n1)·N2 + n2); the coordinate weights scale the unit
  differences of the end nodes' coordinates, which are summed per destination node and added to the coordinates.
  The kernel runs the two matrix-heavy steps in blocks of 4000 rows, its operands cast to a shorter float format
  before each product; the reference applies the same steps to whole matrices.  On the extended reals a change of
  float format is the identity, a product accumulated into the zero matrix is the plain sum over the contracted
  index, and the logistic function is 1 / (1 + e^(-x)) however it is spelt; each row of a result depends on one row
  of its input matrix, so the blocks of rows assemble to the whole matrices.  Every other step — the gathers, the
  sums per destination node, the norms — is the same host operation on both sides, applied to equal operands.
  No law of the extended reals beyond this is used, and the precondition is never opened.

  The frames: each program is a chain of host operations and calls whose buffers between items are a fold of the launch
  memory that no item lets touch an argument (Proof/KRun.lean, Proof/KIRun.lean); the reference is host operations only.
  The ideal pass rewrote nothing, so its conjunct is trivial.
-/
import proofs.«110601_j7275674599802_1_alg».proof.Defs
import proofs.«110601_j7275674599802_1_alg».proof.Proof.Gen.Kernel
import proofs.«110601_j7275674599802_1_alg».proof.Proof.Gen.KernelIdeal
import proofs.«110601_j7275674599802_1_alg».proof.Proof.Gen.ReferenceIdeal
import proofs.«110601_j7275674599802_1_alg».proof.Proof.Gen.Pre_finite_inputs
import proofs.«110601_j7275674599802_1_alg».proof.Proof.Gen.ReferenceIdeal.Run
import proofs.«110601_j7275674599802_1_alg».proof.Proof.Gen.ReferenceIdeal.Read
import proofs.«110601_j7275674599802_1_alg».proof.Proof.KRun
import proofs.«110601_j7275674599802_1_alg».proof.Proof.KIRun
import proofs.«110601_j7275674599802_1_alg».proof.Proof.KIResults
import Idealize.ShloMosaic.Adequacy
import Idealize.ShloMosaic.Init

set_option maxRecDepth 16384

noncomputable section

namespace Cert.Proof

open Idealize.ShloMosaic Idealize.SL.Sem

/-- The program as printed: its chain of items runs and leaves the arguments alone. -/
theorem frame_k : Cert.frame_Kernel := fun m ρ _ => Cert.Kernel.Run.frame (F := Bits) m ρ

/-- The idealized program: the same chain read on the extended reals. -/
theorem frame_ki : Cert.frame_KernelIdeal := fun m ρ _ => Cert.KernelIdeal.Run.frame (F := Ideal) m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two result stages of the arguments: the idealized kernel's fold read at
    its two result buffers (Proof/KIResults.lean), the reference's run as it is, the arguments' agreement rewritten. -/
theorem algebraic : Cert.algebraic_KernelIdeal_ReferenceIdeal := by
  intro m ρ m' ρ' _ hagree
  refine ⟨fun c => Cert.ReferenceIdeal.Read.val_main_v42 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    fun c => Cert.ReferenceIdeal.Read.val_main_v77 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    ?_, ?_⟩
  · refine (θ_run Cert.KernelIdeal.defs _ _).mono (fun r h c => ?_) (Cert.KernelIdeal.Run.run_all (F := Ideal) m ρ)
    exact ⟨(h c _ (Cert.KernelIdeal.Run.mem_uc Cert.KernelIdeal.main_v24 (by decide))).trans (Cert.KernelIdeal.Results.H7_nodes m c),
      (h c _ (Cert.KernelIdeal.Run.mem_uc Cert.KernelIdeal.main_v50 (by decide))).trans (Cert.KernelIdeal.Results.H7_coords m c),
      (h c _ (Cert.KernelIdeal.Run.mem_uc Cert.KernelIdeal.main_arg0 (by decide))).trans (Cert.KernelIdeal.Run.H7_arg0 m c),
      (h c _ (Cert.KernelIdeal.Run.mem_uc Cert.KernelIdeal.main_arg1 (by decide))).trans (Cert.KernelIdeal.Run.H7_arg1 m c),
      (h c _ (Cert.KernelIdeal.Run.mem_uc Cert.KernelIdeal.main_arg2 (by decide))).trans (Cert.KernelIdeal.Run.H7_arg2 m c),
      (h c _ (Cert.KernelIdeal.Run.mem_uc Cert.KernelIdeal.main_arg3 (by decide))).trans (Cert.KernelIdeal.Run.H7_arg3 m c),
      (h c _ (Cert.KernelIdeal.Run.mem_uc Cert.KernelIdeal.main_arg4 (by decide))).trans (Cert.KernelIdeal.Run.H7_arg4 m c),
      (h c _ (Cert.KernelIdeal.Run.mem_uc Cert.KernelIdeal.main_arg5 (by decide))).trans (Cert.KernelIdeal.Run.H7_arg5 m c),
      (h c _ (Cert.KernelIdeal.Run.mem_uc Cert.KernelIdeal.main_arg6 (by decide))).trans (Cert.KernelIdeal.Run.H7_arg6 m c),
      (h c _ (Cert.KernelIdeal.Run.mem_uc Cert.KernelIdeal.main_arg7 (by decide))).trans (Cert.KernelIdeal.Run.H7_arg7 m c),
      (h c _ (Cert.KernelIdeal.Run.mem_uc Cert.KernelIdeal.main_arg8 (by decide))).trans (Cert.KernelIdeal.Run.H7_arg8 m c),
      (h c _ (Cert.KernelIdeal.Run.mem_uc Cert.KernelIdeal.main_arg9 (by decide))).trans (Cert.KernelIdeal.Run.H7_arg9 m c),
      (h c _ (Cert.KernelIdeal.Run.mem_uc Cert.KernelIdeal.main_arg10 (by decide))).trans (Cert.KernelIdeal.Run.H7_arg10 m c),
      (h c _ (Cert.KernelIdeal.Run.mem_uc Cert.KernelIdeal.main_arg11 (by decide))).trans (Cert.KernelIdeal.Run.H7_arg11 m c),
      (h c _ (Cert.KernelIdeal.Run.mem_uc Cert.KernelIdeal.main_arg12 (by decide))).trans (Cert.KernelIdeal.Run.H7_arg12 m c),
      (h c _ (Cert.KernelIdeal.Run.mem_uc Cert.KernelIdeal.main_arg13 (by decide))).trans (Cert.KernelIdeal.Run.H7_arg13 m c),
      (h c _ (Cert.KernelIdeal.Run.mem_uc Cert.KernelIdeal.main_arg14 (by decide))).trans (Cert.KernelIdeal.Run.H7_arg14 m c),
      (h c _ (Cert.KernelIdeal.Run.mem_uc Cert.KernelIdeal.main_arg15 (by decide))).trans (Cert.KernelIdeal.Run.H7_arg15 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15⟩ := hagree c
      rw [Cert.ReferenceIdeal.Read.val_main_v42_eq, h0, h1, h2, h4, h5, h6, h7, h8, h9, h10, h11]
    · obtain ⟨h0, h1, h2, h3, h4, h5, h6, h7, h8, h9, h10, h11, h12, h13, h14, h15⟩ := hagree c
      rw [Cert.ReferenceIdeal.Read.val_main_v77_eq, h0, h1, h2, h3, h4, h5, h6, h7, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
